-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S5532x256 : S_.BroadcastsInDim S5532x256 (![] : Fin 0 → Fin S5532x256.rank)
  reducesTo_S5532x256_S_d0_1 : S5532x256.ReducesTo [0, 1] S_
  bcast_S_S5000x256 : S_.BroadcastsInDim S5000x256 (![] : Fin 0 → Fin S5000x256.rank)
  reducesTo_S5000x256_S_d0_1 : S5000x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v15 : IVec S8192 1) (main_c_5 : IVec S_ 32) : IVec S_ 1 :=
  let main_v16 : IVec S8192 32 := broadcastInDim S8192 ![] bcast_S_S8192 main_c_5
  let main_v17 : IVec S8192 1 := cmpi .sle main_arg1 main_v16
  let main_v18 : IVec S8192 1 := andi main_v15 main_v17
  let main_c_6 : IVec S_ 32 := constantI S_ 32 5555#32
  let main_v19 : IVec S8192 32 := broadcastInDim S8192 ![] bcast_S_S8192 main_c_6
  let main_v20 : IVec S8192 1 := cmpi .eq main_arg1 main_v19
  let main_v21 : IVec S8192 1 := ori main_v18 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v13 main_v22
  main_v23

def fn {F : FTy → Type} [FloatOps F] (main_arg0 : FVec F S8192x256 .f32) (main_arg1 : IVec S8192 32) (main_arg2 : FVec F S5532x256 .f32) (main_arg3 : FVec F S5000x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S5532x256 .f32 := Host.absf main_arg2
  let main_cst_0 : FVec F S_ .f32 := constant S_ .f32 0x7F800000#32
  let main_v5 : FVec F S5532x256 .f32 := broadcastInDim S5532x256 ![] bcast_S_S5532x256 main_cst_0
  let main_v6 : IVec S5532x256 1 := cmpf .olt main_v4 main_v5
  let main_c_1 : IVec S_ 1 := constantI S_ 1 1#1
  let main_v7 : IVec S_ 1 := (fun x v => Host.reduce IntOp.andi x v reducesTo_S5532x256_S_d0_1 h_S_) main_v6 main_c_1
  let main_v8 : IVec S_ 1 := andi main_v3 main_v7
  let main_v9 : FVec F S5000x256 .f32 := Host.absf main_arg3
  let main_cst_2 : FVec F S_ .f32 := constant S_ .f32 0x7F800000#32
  let main_v10 : FVec F S5000x256 .f32 := broadcastInDim S5000x256 ![] bcast_S_S5000x256 main_cst_2
  let main_v11 : IVec S5000x256 1 := cmpf .olt main_v9 main_v10
  let main_c_3 : IVec S_ 1 := constantI S_ 1 1#1
  let main_v12 : IVec S_ 1 := (fun x v => Host.reduce IntOp.andi x v reducesTo_S5000x256_S_d0_1 h_S_) main_v11 main_c_3
  let main_v13 : IVec S_ 1 := andi main_v8 main_v12
  let main_c_4 : IVec S_ 32 := constantI S_ 32 1#32
  let main_v14 : IVec S8192 32 := broadcastInDim S8192 ![] bcast_S_S8192 main_c_4
  let main_v15 : IVec S8192 1 := cmpi .sge main_arg1 main_v14
  let main_c_5 : IVec S_ 32 := constantI S_ 32 5532#32
  fn_part1 (F := F) main_arg1 main_v13 main_v15 main_c_5
-- ==== Kernel.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩
abbrev S8192x1 : Shape := ⟨2, ![8192, 1]⟩
abbrev S10532x256 : Shape := ⟨2, ![10532, 256]⟩
abbrev S11264x256 : Shape := ⟨2, ![11264, 256]⟩
abbrev S2048x256 : Shape := ⟨2, ![2048, 256]⟩
abbrev S1024x256 : Shape := ⟨2, ![1024, 256]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 23
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S5532x256, .f32⟩
  | .hbm, ⟨3, _⟩ => ⟨S5000x256, .f32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S8192x1, .i32⟩
  | .hbm, ⟨8, _⟩ => ⟨S10532x256, .f32⟩
  | .hbm, ⟨9, _⟩ => ⟨S_, .i32⟩
  | .hbm, ⟨10, _⟩ => ⟨S_, .f32⟩
  | .hbm, ⟨11, _⟩ => ⟨S11264x256, .f32⟩
  | .hbm, ⟨12, _⟩ => ⟨S8192x256, .bf16⟩
  | .hbm, ⟨13, _⟩ => ⟨S11264x256, .bf16⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v51 : BitVec 1 := Scalar.cmpi .eq arg1 c10_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  shapeCasts_S8192_S8192x1 : S8192.ShapeCasts S8192x1
  concatenates_S5532x256_S5000x256_S10532x256_d0 : Shape.Concatenates [S5532x256, S5000x256] S10532x256 0
  pads_S10532x256_S11264x256_07320_000 : S10532x256.Pads (![0, 0] : Fin 2 → Nat) ![732, 0] ![0, 0] S11264x256
  h_S_ : 0 < S_.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S2048x1024_d1_w32 : S2048x1024.Iotas .tc 32 [1]
  broadcasts_S2048x1_S2048x1024 : S2048x1.Broadcasts S2048x1024
  reduces_S2048x1024_S2048 : S2048x1024.Reduces [1] S2048
  shapeCasts_S2048_S2048x1 : S2048.ShapeCasts S2048x1
  natLt_1_32 : 1 < 32
  reducesTo_S8192x1_S_d0_1 : S8192x1.ReducesTo [0, 1] S_
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S11264x256.size a
  hwx0_1 : ∀ i : grid0.Coords, EltTy.bits .bf16 = 32 ∨ (Rect.block (s := S11264x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v5) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩
abbrev S256x5532 : Shape := ⟨2, ![256, 5532]⟩
abbrev S8192x5532 : Shape := ⟨2, ![8192, 5532]⟩
abbrev S256x5000 : Shape := ⟨2, ![256, 5000]⟩
abbrev S8192x5000 : Shape := ⟨2, ![8192, 5000]⟩
abbrev S8192x10532 : Shape := ⟨2, ![8192, 10532]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S5532x256, .f32⟩
  | .hbm, ⟨3, _⟩ => ⟨S5000x256, .f32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S256x5532, .f32⟩
  | .hbm, ⟨8, _⟩ => ⟨S8192x5532, .f32⟩
  | .hbm, ⟨9, _⟩ => ⟨S256x5000, .f32⟩
  | .hbm, ⟨10, _⟩ => ⟨S8192x5000, .f32⟩
  | .hbm, ⟨11, _⟩ => ⟨S8192x10532, .f32⟩
  | .hbm, ⟨12, _⟩ => ⟨S_, .f32⟩
  | .hbm, ⟨13, _⟩ => ⟨S8192x10532, .f32⟩
  | .hbm, ⟨14, _⟩ => ⟨S8192x10532, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x10532, .f32⟩
  | .hbm, ⟨33, _⟩ => ⟨S8192x10532, .f32⟩
  | .hbm, ⟨34, _⟩ => ⟨S8192x10532, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S8192x10532, .f32⟩
  | .hbm, ⟨40, _⟩ => ⟨S8192x10532, .f32⟩
  | .hbm, ⟨41, _⟩ => ⟨S8192x1, .i32⟩
  | .hbm, ⟨42, _⟩ => ⟨S_, .i32⟩
  | .hbm, ⟨43, _⟩ => ⟨S8192x1, .i32⟩
  | .hbm, ⟨44, _⟩ => ⟨S8192x1, .i1⟩
  | .hbm, ⟨45, _⟩ => ⟨S_, .i32⟩
  | .hbm, ⟨46, _⟩ => ⟨S8192x1, .i32⟩
  | .hbm, ⟨47, _⟩ => ⟨S8192x1, .i32⟩
  | .hbm, ⟨48, _⟩ => ⟨S8192x1, .i32⟩
  | .hbm, ⟨49, _⟩ => ⟨S8192x1x1, .i32⟩
  | .hbm, ⟨50, _⟩ => ⟨S1, .i32⟩
  | .hbm, ⟨51, _⟩ => ⟨S_, .i32⟩
  | .hbm, ⟨52, _⟩ => ⟨S8192x1x1, .i32⟩
  | .hbm, ⟨53, _⟩ => ⟨S8192x1x1, .i1⟩
  | .hbm, ⟨54, _⟩ => ⟨S1x1x1, .i32⟩
  | .hbm, ⟨55, _⟩ => ⟨S8192x1x1, .i32⟩
  | .hbm, ⟨56, _⟩ => ⟨S8192x1x1, .i1⟩
  | .hbm, ⟨57, _⟩ => ⟨S8192x1x1, .i1⟩
  | .hbm, ⟨58, _⟩ => ⟨S_, .i1⟩
  | .hbm, ⟨59, _⟩ => ⟨S8192x1, .i1⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v12 : Ref sig .tc := ⟨.hbm, 40, rfl⟩
abbrev main_v13 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_3 : Ref sig .tc := ⟨.hbm, 67, rfl⟩
abbrev main_v18 : Ref sig .tc := ⟨.hbm, 68, rfl⟩
abbrev main_cst_4 : Ref sig .tc := ⟨.hbm, 69, rfl⟩
abbrev main_v19 : Ref sig .tc := ⟨.hbm, 70, rfl⟩
abbrev main_cst_5 : Ref sig .tc := ⟨.hbm, 71, rfl⟩
abbrev main_call3_v0 : Ref sig .tc := ⟨.hbm, 72, rfl⟩
abbrev main_call3_v1 : Ref sig .tc := ⟨.hbm, 73, rfl⟩
abbrev main_v20 : Ref sig .tc := ⟨.hbm, 74, rfl⟩
abbrev main_cst_6 : Ref sig .tc := ⟨.hbm, 75, rfl⟩
abbrev main_v21 : Ref sig .tc := ⟨.hbm, 76, rfl⟩
abbrev main_v22 : Ref sig .tc := ⟨.hbm, 77, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  transposes_S5532x256_S256x5532_1_0 : S5532x256.Transposes [1, 0] S256x5532
  transposes_S5000x256_S256x5000_1_0 : S5000x256.Transposes [1, 0] S256x5000
  concatenates_S8192x5532_S8192x5000_S8192x10532_d1 : Shape.Concatenates [S8192x5532, S8192x5000] S8192x10532 1
  bcast_S_S8192x10532 : S_.BroadcastsInDim S8192x10532 (![] : Fin 0 → Fin S8192x10532.rank)
  reducesTo_S8192x10532_S8192_d1 : S8192x10532.ReducesTo [1] S8192
  h_S_ : 0 < S_.numel
  bcast_S8192_S8192x1_0 : S8192.BroadcastsInDim S8192x1 (![0] : Fin 1 → Fin S8192x1.rank)
  bcast_S8192x1_S8192x10532_0_1 : S8192x1.BroadcastsInDim S8192x10532 (![0, 1] : Fin 2 → Fin S8192x10532.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x5532_S8192x5532_1_0_0_1_n_n_wf : DotDims.WF S8192x256 S256x5532 S8192x5532 [1] [0] [0] [1] [] []
  dot_S8192x256_S256x5000_S8192x5000_1_0_0_1_n_n_wf : DotDims.WF S8192x256 S256x5000 S8192x5000 [1] [0] [0] [1] [] []
  gather_S8192x10532_S8192x1x1_S8192x1_n_1_0_0_1_2_11_wf : GatherDims.WF S8192x10532 S8192x1x1 S8192x1 [] [1] [0] [1] [0] 2 ![1, 1]

variable [Facts₀]

def dot_S8192x256_S256x5532_S8192x5532_1_0_0_1_n_n : DotDims S8192x256 S256x5532 S8192x5532 where
  lhsContracting := [1]
  rhsContracting := [0]
  lhsNonContracting := [0]
  rhsNonContracting := [1]
  lhsBatch := []
  rhsBatch := []
  wf := dot_S8192x256_S256x5532_S8192x5532_1_0_0_1_n_n_wf
def dot_S8192x256_S256x5000_S8192x5000_1_0_0_1_n_n : DotDims S8192x256 S256x5000 S8192x5000 where
  lhsContracting := [1]
  rhsContracting := [0]
  lhsNonContracting := [0]
  rhsNonContracting := [1]
  lhsBatch := []
  rhsBatch := []
  wf := dot_S8192x256_S256x5000_S8192x5000_1_0_0_1_n_n_wf
def gather_S8192x10532_S8192x1x1_S8192x1_n_1_0_0_1_2_11 : GatherDims S8192x10532 S8192x1x1 S8192x1 where
  offsetDims := []
  collapsedSliceDims := [1]
  operandBatchingDims := [0]
  startIndicesBatchingDims := [0]
  startIndexMap := [1]
  indexVectorDim := 2
  sliceSizes := ![1, 1]
  wf := gather_S8192x10532_S8192x1x1_S8192x1_n_1_0_0_1_2_11_wf

class Facts : Prop extends Facts₀ where

variable [Facts]
-- ==== Proof.Spec.lean ====
/-
  The mathematics of the OIM loss, row by row, on the extended reals.

  One row of the loss has a feature vector `x` (256 entries), a label, and a weight table `W` whose
  first 10532 rows are the look-up table followed by the circular queue.  Column `c` has the logit
  `30 · ⟨x, W c⟩`.  The streamed computation walks eleven tiles of 1024 columns (the last 732 columns are
  padding and score `⊥`), carrying a running maximum `m`, a running sum `l` of `exp (score - m)` rescaled
  each time the maximum moves, and the score picked out at the label's column.  The plain computation
  takes the maximum of the row, the sum of `exp (logit - max)`, and reads the shifted logit minus the log
  of that sum at the (clipped) label.  Both give `log ∑ exp logit - logit label`.
-/
import Idealize.ShloMosaic.PureOps.Ideal
import Idealize.ShloMosaic.PureOps.Ideal.Laws
import Idealize.ShloMosaic.Lib.ValueIdx

noncomputable section

namespace Cert.OimLoss

open Idealize.ShloMosaic Idealize.ShloMosaic.ValueIdx

/-- The logit scale, the float 30. -/
abbrev scale : EReal := Ideal.ofBits .f32 0x41F00000#32
/-- The float 1 (the floor of the count of valid rows). -/
abbrev one : EReal := Ideal.ofBits .f32 0x3F800000#32

/-- Inner product of two feature vectors. -/
def dot (x w : Fin 256 → EReal) : EReal := ∑ d : Fin 256, x d * w d

/-- The logit of column `c`. -/
def logit (x : Fin 256 → EReal) (W : ℕ → Fin 256 → EReal) (c : ℕ) : EReal := dot x (W c) * scale

/-- The score of column `c` of the padded table: its logit, and `⊥` on a padding column. -/
def score (x : Fin 256 → EReal) (W : ℕ → Fin 256 → EReal) (c : ℕ) : EReal :=
  if c < 10532 then logit x W c else ⊥

/-- The scores of tile `k`. -/
def tile (x : Fin 256 → EReal) (W : ℕ → Fin 256 → EReal) (k : ℕ) : Fin 1024 → EReal :=
  fun j => score x W (1024 * k + j.val)

/-- The maximum of a tile, from `⊥`. -/
def tileMax (s : Fin 1024 → EReal) : EReal := (Finset.univ : Finset (Fin 1024)).fold max ⊥ s

/-- The running maximum after one more tile. -/
def nextM (m : EReal) (s : Fin 1024 → EReal) : EReal := max m (tileMax s)

/-- The running sum after one more tile: the old sum rescaled to the new maximum, plus the tile's terms. -/
def nextL (m l : EReal) (s : Fin 1024 → EReal) : EReal :=
  Ideal.exp (m - nextM m s) * l + ∑ j : Fin 1024, Ideal.exp (s j - nextM m s)

/-- The selected score after one more tile: the tile's score at the label's column is added, if it has one. -/
def nextSel (k : ℕ) (lab : BitVec 32) (sel : EReal) (s : Fin 1024 → EReal) : EReal :=
  sel + ∑ j : Fin 1024, (if BitVec.ofNat 32 (1024 * k + j.val) = lab then s j else 0)

/-- One tile's update of (maximum, sum, selected score). -/
def step (k : ℕ) (lab : BitVec 32) (q : EReal × EReal × EReal) (s : Fin 1024 → EReal) : EReal × EReal × EReal :=
  (nextM q.1 s, nextL q.1 q.2.1 s, nextSel k lab q.2.2 s)

/-- (maximum, sum, selected score) after tiles `0 … k`, from (`⊥`, 0, 0). -/
def st (x : Fin 256 → EReal) (W : ℕ → Fin 256 → EReal) (lab : BitVec 32) : ℕ → EReal × EReal × EReal
  | 0 => step 0 lab (⊥, 0, 0) (tile x W 0)
  | k + 1 => step (k + 1) lab (st x W lab k) (tile x W (k + 1))

/-- The row's negative log-likelihood as the streamed computation ends it; 0 on an ignored row. -/
def nllK (lab : BitVec 32) (q : EReal × EReal × EReal) : EReal :=
  if lab ≠ 5554#32 then 0 - ((q.2.2 - q.1) - Ideal.log q.2.1) else 0

/-- 1 on a row that counts, 0 on an ignored one. -/
def validK (lab : BitVec 32) : EReal := if lab ≠ 5554#32 then 1 else 0

/-- The row maximum as the plain computation takes it. -/
def refMax (l : Fin 10532 → EReal) : EReal := max ⊥ ((Finset.univ : Finset (Fin 10532)).fold max ⊥ l)

/-- The sum of the shifted exponentials. -/
def refZ (l : Fin 10532 → EReal) : EReal := 0 + ∑ c : Fin 10532, Ideal.exp (l c - refMax l)

/-- The log-softmax at column `c`. -/
def refLogp (l : Fin 10532 → EReal) (c : Fin 10532) : EReal := (l c - refMax l) - Ideal.log (refZ l)

/-- The label clipped into the table's columns. -/
def clipCol (lab : BitVec 32) : Fin 10532 :=
  if h0 : lab.toInt < 0 then ⟨0, by decide⟩
  else if h1 : 10531 < lab.toInt then ⟨10531, by decide⟩
  else ⟨lab.toInt.toNat, by omega⟩

/-- The row's negative log-likelihood as the plain computation ends it; 0 on an ignored row. -/
def nllR (x : Fin 256 → EReal) (W : ℕ → Fin 256 → EReal) (lab : BitVec 32) : EReal :=
  if lab ≠ 5554#32 then -(refLogp (fun c => logit x W c.val) (clipCol lab)) else 0

/-- The mean over the rows that count (at least one). -/
def lossOf (nll valid : Fin 8192 → EReal) : EReal :=
  Ideal.div (0 + ∑ r : Fin 8192, nll r) (max (0 + ∑ r : Fin 8192, valid r) one)

/-! ## The arrays -/

/-- Row `r` of the feature array. -/
def rowOf (X : (⟨2, ![8192, 256]⟩ : Shape).Idx → EReal) (r : Fin 8192) : Fin 256 → EReal := fun d => X (ix2 r d)

/-- Row `c` of the table: look-up table, then queue, then zero padding. -/
def wpad (lut : (⟨2, ![5532, 256]⟩ : Shape).Idx → EReal) (cq : (⟨2, ![5000, 256]⟩ : Shape).Idx → EReal)
    (c : ℕ) (d : Fin 256) : EReal :=
  if h : c < 5532 then lut (ix2 ⟨c, h⟩ d)
  else if h2 : c < 10532 then cq (ix2 ⟨c - 5532, by omega⟩ d) else 0

/-- Row `r`'s label: the given person id minus one. -/
def labOf (A : (⟨1, ![8192]⟩ : Shape).Idx → BitVec 32) (r : Fin 8192) : BitVec 32 := A (ix1 r) - 1#32

/-- The loss as streamed. -/
def lossK (X : (⟨2, ![8192, 256]⟩ : Shape).Idx → EReal) (A : (⟨1, ![8192]⟩ : Shape).Idx → BitVec 32)
    (lut : (⟨2, ![5532, 256]⟩ : Shape).Idx → EReal) (cq : (⟨2, ![5000, 256]⟩ : Shape).Idx → EReal) : EReal :=
  lossOf (fun r => nllK (labOf A r) (st (rowOf X r) (wpad lut cq) (labOf A r) 10)) (fun r => validK (labOf A r))

/-- The loss as computed plainly. -/
def lossR (X : (⟨2, ![8192, 256]⟩ : Shape).Idx → EReal) (A : (⟨1, ![8192]⟩ : Shape).Idx → BitVec 32)
    (lut : (⟨2, ![5532, 256]⟩ : Shape).Idx → EReal) (cq : (⟨2, ![5000, 256]⟩ : Shape).Idx → EReal) : EReal :=
  lossOf (fun r => nllR (rowOf X r) (wpad lut cq) (labOf A r)) (fun r => validK (labOf A r))

end Cert.OimLoss

end
-- ==== Proof.RowMath.lean ====
/-
  The streamed (online) log-sum-exp of a row equals the plain one.
-/
import proofs.«412923_j54760833024747_1_alg».proof.Proof.Spec
import Mathlib.Algebra.BigOperators.Intervals
import Mathlib.Algebra.BigOperators.Fin
import Mathlib.Data.Finset.Max
import Mathlib.Data.Finset.Fold
import Mathlib.Data.Finset.Lattice.Fold
import Mathlib.Tactic.Ring

noncomputable section

namespace Cert.OimLoss

open Idealize.ShloMosaic

/-! ## Real numbers inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real terms is real. -/
theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- The logit scale is the real number 30. -/
theorem scale_real : ∃ r : ℝ, scale = (r : EReal) :=
  ⟨30, by simp [scale, Ideal.ofBits, Ideal.ieee, -EReal.coe_mul]; norm_num⟩

/-- Real features against real table rows give real logits. -/
theorem logit_real (x : Fin 256 → EReal) (W : ℕ → Fin 256 → EReal)
    (hx : ∀ d, ∃ a : ℝ, x d = (a : EReal))
    (hW : ∀ c, c < 10532 → ∀ d, ∃ a : ℝ, W c d = (a : EReal)) :
    ∃ a : ℕ → ℝ, ∀ c, c < 10532 → logit x W c = (a c : EReal) := by
  obtain ⟨r, hr⟩ := scale_real
  have h : ∀ c, c < 10532 → ∃ b : ℝ, logit x W c = (b : EReal) := by
    intro c hc
    obtain ⟨s, hs⟩ := real_sum Finset.univ (fun d => x d * W c d) (fun d => by
      obtain ⟨u, hu⟩ := hx d
      obtain ⟨v, hv⟩ := hW c hc d
      exact ⟨u * v, by rw [hu, hv, EReal.coe_mul]⟩)
    exact ⟨s * r, by unfold logit dot; rw [hs, hr, EReal.coe_mul]⟩
  choose! a ha using h
  exact ⟨a, ha⟩

/-! ## The columns of the tiles -/

/-- The real columns that come before tile `k`. -/
def before (k : ℕ) : Finset ℕ := (Finset.range (1024 * k)).filter (· < 10532)

/-- The real columns of tile `k`. -/
def cols (k : ℕ) : Finset ℕ := (Finset.Ico (1024 * k) (1024 * k + 1024)).filter (· < 10532)

theorem mem_before {k c : ℕ} : c ∈ before k ↔ c < 1024 * k ∧ c < 10532 := by
  simp [before]

theorem mem_cols {k c : ℕ} : c ∈ cols k ↔ (1024 * k ≤ c ∧ c < 1024 * k + 1024) ∧ c < 10532 := by
  simp [cols, and_assoc]

theorem before_zero : before 0 = ∅ := by
  simp [before]

theorem before_succ (k : ℕ) : before (k + 1) = before k ∪ cols k := by
  ext c
  rw [Finset.mem_union, mem_before, mem_before, mem_cols]
  omega

theorem before_disj (k : ℕ) : Disjoint (before k) (cols k) := by
  rw [Finset.disjoint_left]
  intro c h1 h2
  rw [mem_before] at h1
  rw [mem_cols] at h2
  omega

theorem cols_nonempty (k : ℕ) (hk : k ≤ 10) : (cols k).Nonempty :=
  ⟨1024 * k, by rw [mem_cols]; omega⟩

theorem before_eleven : before 11 = Finset.range 10532 := by
  ext c
  rw [mem_before, Finset.mem_range]
  omega

/-- A sum over a tile's 1024 positions is a sum over its interval of columns. -/
theorem sum_tile (g : ℕ → EReal) (k : ℕ) :
    ∑ j : Fin 1024, g (1024 * k + j.val) = ∑ c ∈ Finset.Ico (1024 * k) (1024 * k + 1024), g c := by
  rw [Finset.sum_Ico_eq_sum_range, Nat.add_sub_cancel_left,
    ← Fin.sum_univ_eq_sum_range (fun i => g (1024 * k + i))]

/-- If the padding columns contribute nothing, the sum is over the tile's real columns. -/
theorem sum_tile_cols (g : ℕ → EReal) (k : ℕ)
    (h0 : ∀ c, c ∈ Finset.Ico (1024 * k) (1024 * k + 1024) → ¬ c < 10532 → g c = 0) :
    ∑ j : Fin 1024, g (1024 * k + j.val) = ∑ c ∈ cols k, g c := by
  rw [sum_tile, cols, Finset.sum_filter_of_ne]
  intro c hc hne
  by_contra hlt
  exact hne (h0 c hc hlt)

/-- The supremum of finitely many reals, at least one, is real. -/
theorem sup_real (a : ℕ → ℝ) (T : Finset ℕ) (hT : T.Nonempty) :
    ∃ P : ℝ, T.sup (fun c => (a c : EReal)) = (P : EReal) := by
  obtain ⟨c0, hc0, hmax⟩ := T.exists_max_image a hT
  exact ⟨a c0, le_antisymm (Finset.sup_le fun c hc => EReal.coe_le_coe_iff.2 (hmax c hc))
    (Finset.le_sup (f := fun c => (a c : EReal)) hc0)⟩

/-- The maximum of a tile is the supremum over its real columns. -/
theorem tileMax_eq (a : ℕ → ℝ) (sc : ℕ → EReal)
    (hsc : ∀ c, sc c = if c < 10532 then (a c : EReal) else ⊥) (k : ℕ) :
    tileMax (fun j : Fin 1024 => sc (1024 * k + j.val)) = (cols k).sup (fun c => (a c : EReal)) := by
  unfold tileMax
  apply le_antisymm
  · rw [Finset.fold_max_le]
    refine ⟨bot_le, fun j _ => ?_⟩
    rw [hsc]
    split_ifs with h
    · exact Finset.le_sup (f := fun c => (a c : EReal)) (mem_cols.2 ⟨⟨by omega, by omega⟩, h⟩)
    · exact bot_le
  · rw [Finset.sup_le_iff]
    intro c hc
    rw [mem_cols] at hc
    rw [Finset.le_fold_max]
    right
    refine ⟨⟨c - 1024 * k, by omega⟩, Finset.mem_univ _, ?_⟩
    show (a c : EReal) ≤ sc (1024 * k + (c - 1024 * k))
    rw [Nat.add_sub_cancel' hc.1.1, hsc, if_pos hc.2]

/-- Rescaling a sum of exponentials from its own maximum to another real level. -/
theorem rescale (a : ℕ → ℝ) (R : Finset ℕ) (P' : ℝ) :
    Ideal.exp (R.sup (fun c => (a c : EReal)) - (P' : EReal))
        * ∑ c ∈ R, Ideal.exp ((a c : EReal) - R.sup (fun c => (a c : EReal)))
      = ∑ c ∈ R, Ideal.exp ((a c : EReal) - (P' : EReal)) := by
  rcases R.eq_empty_or_nonempty with rfl | hR
  · simp
  · obtain ⟨P, hP⟩ := sup_real a R hR
    rw [hP]
    simp only [← EReal.coe_sub, Ideal.exp_coe]
    rw [← coe_sum, ← coe_sum, ← EReal.coe_mul, Finset.mul_sum]
    refine congrArg _ (Finset.sum_congr rfl fun c _ => ?_)
    rw [← Real.exp_add]
    congr 1
    ring

/-! ## The invariant of the streamed computation -/

/-- What (maximum, sum, selected score) hold once the real columns `R` have been read: the supremum of
    their logits, the sum of their exponentials shifted by that supremum, and the label's logit if the
    label is among them. -/
def Inv (a : ℕ → ℝ) (lab : BitVec 32) (R : Finset ℕ) (q : EReal × EReal × EReal) : Prop :=
  q.1 = R.sup (fun c => (a c : EReal)) ∧
  q.2.1 = ∑ c ∈ R, Ideal.exp ((a c : EReal) - R.sup (fun c => (a c : EReal))) ∧
  q.2.2 = ∑ c ∈ R, (if c = lab.toNat then (a c : EReal) else 0)

/-- A column number below 2^32 is the label exactly when it is the label's value. -/
theorem ofNat_eq_iff (c : ℕ) (hc : c < 11264) (lab : BitVec 32) :
    BitVec.ofNat 32 c = lab ↔ c = lab.toNat := by
  rw [← BitVec.toNat_inj, BitVec.toNat_ofNat, Nat.mod_eq_of_lt (by omega)]

/-- One tile's update keeps the invariant. -/
theorem inv_step (a : ℕ → ℝ) (lab : BitVec 32) (sc : ℕ → EReal)
    (hsc : ∀ c, sc c = if c < 10532 then (a c : EReal) else ⊥) (hlab : lab.toNat < 10532)
    (k : ℕ) (hk : k ≤ 10) (q : EReal × EReal × EReal) (hq : Inv a lab (before k) q) :
    Inv a lab (before (k + 1)) (step k lab q (fun j : Fin 1024 => sc (1024 * k + j.val))) := by
  obtain ⟨h1, h2, h3⟩ := hq
  have hM : nextM q.1 (fun j : Fin 1024 => sc (1024 * k + j.val))
      = (before (k + 1)).sup (fun c => (a c : EReal)) := by
    rw [nextM, tileMax_eq a sc hsc k, h1, before_succ, Finset.sup_union]
  obtain ⟨P', hP'⟩ := sup_real a (before (k + 1))
    (by rw [before_succ]; exact (cols_nonempty k hk).mono Finset.subset_union_right)
  refine ⟨hM, ?_, ?_⟩
  · show nextL q.1 q.2.1 (fun j : Fin 1024 => sc (1024 * k + j.val)) = _
    unfold nextL
    have key : ∑ j : Fin 1024, Ideal.exp (sc (1024 * k + j.val) - (P' : EReal))
        = ∑ c ∈ cols k, Ideal.exp ((a c : EReal) - (P' : EReal)) := by
      refine (sum_tile_cols (fun c => Ideal.exp (sc c - (P' : EReal))) k ?_).trans ?_
      · intro c _ hc
        show Ideal.exp (sc c - (P' : EReal)) = 0
        rw [hsc, if_neg hc, EReal.bot_sub, Ideal.exp_bot]
      · refine Finset.sum_congr rfl fun c hc => ?_
        show Ideal.exp (sc c - (P' : EReal)) = _
        rw [hsc, if_pos (mem_cols.1 hc).2]
    rw [hM, hP', h1, h2, rescale, before_succ, Finset.sum_union (before_disj k), key]
  · show nextSel k lab q.2.2 (fun j : Fin 1024 => sc (1024 * k + j.val)) = _
    unfold nextSel
    have key : ∑ j : Fin 1024, (if BitVec.ofNat 32 (1024 * k + j.val) = lab then sc (1024 * k + j.val) else 0)
        = ∑ c ∈ cols k, (if c = lab.toNat then (a c : EReal) else 0) := by
      refine (sum_tile_cols (fun c => if BitVec.ofNat 32 c = lab then sc c else 0) k ?_).trans ?_
      · intro c hc hge
        rw [Finset.mem_Ico] at hc
        show (if BitVec.ofNat 32 c = lab then sc c else 0) = 0
        rw [if_neg]
        rw [ofNat_eq_iff c (by omega) lab]
        omega
      · refine Finset.sum_congr rfl fun c hc => ?_
        have hc' := mem_cols.1 hc
        show (if BitVec.ofNat 32 c = lab then sc c else 0) = _
        rw [hsc, if_pos hc'.2]
        simp only [ofNat_eq_iff c (by omega) lab]
    rw [h3, before_succ, Finset.sum_union (before_disj k), key]

/-- After tiles `0 … k` the streamed state describes the real columns read so far. -/
theorem inv_st (x : Fin 256 → EReal) (W : ℕ → Fin 256 → EReal) (lab : BitVec 32) (a : ℕ → ℝ)
    (ha : ∀ c, c < 10532 → logit x W c = (a c : EReal)) (hlab : lab.toNat < 10532)
    (k : ℕ) (hk : k ≤ 10) : Inv a lab (before (k + 1)) (st x W lab k) := by
  have hsc : ∀ c, score x W c = if c < 10532 then (a c : EReal) else ⊥ := by
    intro c
    unfold score
    split_ifs with h
    · exact ha c h
    · rfl
  induction k with
  | zero =>
    have h0 : Inv a lab (before 0) (⊥, 0, 0) := by
      rw [before_zero]
      exact ⟨by simp, by simp, by simp⟩
    exact inv_step a lab (score x W) hsc hlab 0 hk _ h0
  | succ k ih => exact inv_step a lab (score x W) hsc hlab (k + 1) hk _ (ih (by omega))

/-! ## The plain computation, and the comparison -/

/-- A label whose signed value lies in the table has that value as its unsigned value. -/
theorem toNat_of_toInt (lab : BitVec 32) (hlab : 0 ≤ lab.toInt ∧ lab.toInt < 10532) :
    lab.toNat < 10532 ∧ lab.toInt = (lab.toNat : ℤ) := by
  have h := BitVec.toInt_eq_toNat_cond lab
  have hlt := lab.isLt
  split_ifs at h <;> omega

/-- Such a label is its own clipped column. -/
theorem clipCol_val (lab : BitVec 32) (hlab : 0 ≤ lab.toInt ∧ lab.toInt < 10532) :
    (clipCol lab).val = lab.toNat := by
  obtain ⟨h1, h2⟩ := toNat_of_toInt lab hlab
  unfold clipCol
  rw [dif_neg (by omega), dif_neg (by omega)]
  show lab.toInt.toNat = lab.toNat
  omega

/-- The plain row maximum is the supremum over all the real columns. -/
theorem refMax_eq (a : ℕ → ℝ) (l : Fin 10532 → EReal) (hl : ∀ c, l c = (a c.val : EReal)) :
    refMax l = (Finset.range 10532).sup (fun c => (a c : EReal)) := by
  unfold refMax
  rw [max_eq_right bot_le]
  apply le_antisymm
  · rw [Finset.fold_max_le]
    refine ⟨bot_le, fun c _ => ?_⟩
    rw [hl]
    exact Finset.le_sup (f := fun c => (a c : EReal)) (Finset.mem_range.2 c.isLt)
  · rw [Finset.sup_le_iff]
    intro c hc
    rw [Finset.le_fold_max]
    right
    exact ⟨⟨c, Finset.mem_range.1 hc⟩, Finset.mem_univ _, by rw [hl]⟩

/-- The plain sum of shifted exponentials, over the real columns. -/
theorem refZ_eq (a : ℕ → ℝ) (l : Fin 10532 → EReal) (hl : ∀ c, l c = (a c.val : EReal)) :
    refZ l = ∑ c ∈ Finset.range 10532,
      Ideal.exp ((a c : EReal) - (Finset.range 10532).sup (fun c => (a c : EReal))) := by
  unfold refZ
  rw [zero_add, refMax_eq a l hl, ← Fin.sum_univ_eq_sum_range
    (fun c => Ideal.exp ((a c : EReal) - (Finset.range 10532).sup (fun c => (a c : EReal))))]
  exact Finset.sum_congr rfl fun c _ => by rw [hl]

/-- On a row of real features against a table of real rows, with the label inside the table's columns, the
    streamed computation's negative log-likelihood is the plain one: both are
    `log (∑ exp logit) - logit label`. -/
theorem row_eq (x : Fin 256 → EReal) (W : ℕ → Fin 256 → EReal) (lab : BitVec 32)
    (hx : ∀ d, ∃ a : ℝ, x d = (a : EReal))
    (hW : ∀ c, c < 10532 → ∀ d, ∃ a : ℝ, W c d = (a : EReal))
    (hlab : 0 ≤ lab.toInt ∧ lab.toInt < 10532) :
    nllK lab (st x W lab 10) = nllR x W lab := by
  obtain ⟨a, ha⟩ := logit_real x W hx hW
  obtain ⟨hlt, -⟩ := toNat_of_toInt lab hlab
  obtain ⟨h1, h2, h3⟩ := inv_st x W lab a ha hlt 10 le_rfl
  rw [show before (10 + 1) = Finset.range 10532 from before_eleven] at h1 h2 h3
  have hl : ∀ c : Fin 10532, (fun c : Fin 10532 => logit x W c.val) c = (a c.val : EReal) :=
    fun c => ha c.val c.isLt
  have hA := refMax_eq a (fun c : Fin 10532 => logit x W c.val) hl
  have hZ := refZ_eq a (fun c : Fin 10532 => logit x W c.val) hl
  have hsel : (st x W lab 10).2.2 = (a lab.toNat : EReal) := by
    rw [h3, Finset.sum_ite_eq', if_pos (Finset.mem_range.2 hlt)]
  have hL : refLogp (fun c : Fin 10532 => logit x W c.val) (clipCol lab)
      = ((a lab.toNat : EReal) - (st x W lab 10).1) - Ideal.log (st x W lab 10).2.1 := by
    unfold refLogp
    rw [hA, hZ, h1, h2]
    show (logit x W (clipCol lab).val - _) - _ = _
    rw [clipCol_val lab hlab, ha _ hlt]
  unfold nllK nllR
  split_ifs with hne
  · rw [hL, hsel, sub_eq_add_neg (0 : EReal), zero_add]
  · rfl

end Cert.OimLoss

end
-- ==== Proof.PreDecode.lean ====
/-
  What the precondition says of the arguments: every feature, look-up-table and queue entry is a real number, and
  every row's label (the given id minus one) is a column of the table.
-/
import proofs.«412923_j54760833024747_1_alg».proof.Pre_finite_inputs
import proofs.«412923_j54760833024747_1_alg».proof.Proof.Gen.Pre_finite_inputs
import proofs.«412923_j54760833024747_1_alg».proof.Proof.Spec
import Idealize.ShloMosaic.Lib.ValueIdx
import Idealize.ShloMosaic.Lib.ReduceAll
import Idealize.ShloMosaic.Lib.StableHlo.Predicate

noncomputable section

namespace Cert.PreDecode

open Cert.OimLoss Idealize.ShloMosaic Idealize.ShloMosaic.ValueIdx

/-- The scalar shape has one index. -/
instance subsingleton_scalar_idx : Subsingleton Cert.Pre_finite_inputs.S_.Idx := ⟨fun a b => funext fun d => d.elim0⟩

/-- The pattern 0x7F800000 denotes +∞. -/
theorem inf_pattern : Ideal.ofBits .f32 0x7F800000#32 = ⊤ := by simp [Ideal.ofBits, Ideal.ieee]

/-- An extended real whose absolute value `max x (-x)` is below +∞ is neither infinity: it is a real number. -/
theorem real_of_abs_lt_inf (x : EReal)
    (h : Ideal.cmp .olt (max x (-x)) (Ideal.ofBits .f32 0x7F800000#32) = 1#1) : ∃ a : ℝ, x = (a : EReal) := by
  rw [inf_pattern] at h
  induction x using EReal.rec with
  | bot => exact absurd h (by simp [Ideal.cmp])
  | coe a => exact ⟨a, rfl⟩
  | top => exact absurd h (by simp [Ideal.cmp])

/-- A 32-bit id that is in `[1, 5532]` signed, or equal to 5555, has `id - 1` in `[0, 10532)` signed: the
    subtraction does not wrap. -/
theorem label_range (w : BitVec 32)
    (h : IntOp.ori (IntOp.andi (IntOp.cmpi .sge w 1#32) (IntOp.cmpi .sle w 5532#32)) (IntOp.cmpi .eq w 5555#32) = 1#1) :
    0 ≤ (w - 1#32).toInt ∧ (w - 1#32).toInt < 10532 := by
  rw [IntOp.ori_eq_one, IntOp.andi_eq_one, IntOp.cmpi_sge, IntOp.cmpi_sle, IntOp.cmpi_eq] at h
  rcases h with ⟨h1, h2⟩ | h
  · have e1 : (1#32 : BitVec 32).toInt = 1 := by decide
    have e2 : (5532#32 : BitVec 32).toInt = 5532 := by decide
    rw [e1] at h1
    rw [e2] at h2
    have hs : (w - 1#32).toInt = w.toInt - (1#32 : BitVec 32).toInt :=
      BitVec.toInt_sub_of_not_ssubOverflow (by
        simp only [BitVec.ssubOverflow, Nat.reduceSub, Bool.or_eq_true, decide_eq_true_eq, e1]
        omega)
    rw [hs, e1]
    omega
  · subst h
    decide

/-- Under the precondition the float arguments are real entry by entry, and each label `id - 1` lies in `[0, 10532)`
    (the precondition allows the ids `1 … 5532` and `5555`). -/
theorem pre_decode [Cert.Pre_finite_inputs.Facts]
    (X : FVec Ideal Cert.Pre_finite_inputs.S8192x256 .f32) (A : IVec Cert.Pre_finite_inputs.S8192 32)
    (lut : FVec Ideal Cert.Pre_finite_inputs.S5532x256 .f32) (cq : FVec Ideal Cert.Pre_finite_inputs.S5000x256 .f32)
    (h : Cert.Pre_finite_inputs.fn (F := Ideal) X A lut cq = fun _ => 1#1) :
    (∀ i, ∃ a : ℝ, X i = (a : EReal)) ∧ (∀ i, ∃ a : ℝ, lut i = (a : EReal)) ∧ (∀ i, ∃ a : ℝ, cq i = (a : EReal))
      ∧ ∀ r : Fin 8192, 0 ≤ (labOf A r).toInt ∧ (labOf A r).toInt < 10532 := by
  have e := congrFun h ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨e1, e2⟩ := IntOp.andi_eq_one.1 e12
  refine ⟨fun i => real_of_abs_lt_inf (X i) (Host.reduce_andi_all _ _ _ _ _ e1 i),
    fun i => real_of_abs_lt_inf (lut i) (Host.reduce_andi_all _ _ _ _ _ e2 i),
    fun i => real_of_abs_lt_inf (cq i) (Host.reduce_andi_all _ _ _ _ _ e3 i), fun r => ?_⟩
  show 0 ≤ (A (ix1 r) - 1#32).toInt ∧ (A (ix1 r) - 1#32).toInt < 10532
  exact label_range (A (ix1 r)) (Host.reduce_andi_all _ _ _ _ _ e4 (ix1 r))

end Cert.PreDecode

end
-- ==== Proof.Pieces.lean ====
/-
  What each control case of the kernel body leaves in the three carried buffers (running maximum, running sum,
  selected score) and, at the last column tile, in the two outputs, as the body's pure arithmetic of the blocks
  it loaded and of what the previous grid point left.
-/
import proofs.«412923_j54760833024747_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F] [Named F]

/-- The two zero offsets of a whole-buffer rectangle, as the constant-zero function. -/
theorem hz : (![0, 0] : Fin 2 → Nat) = fun _ => 0 := funext fun a => by fin_cases a <;> rfl

/-! ## First column tile: the carried buffers are reset, then updated -/

theorem sA0 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i) (x0 : Vec F S2048x256 .bf16) (x1 : Vec F S1024x256 .bf16) (x2 : Vec F S2048x1 .i32) :
    sout0_A_0 c i arg2 harg2 arg3 harg3 arg4 harg4 arg5 harg5 arg6 harg6 arg7 harg7 arg8 harg8 arg9 harg9 hc0 hc1 x0 x1 x2 = k0_pay3 (k0_pay6 (F := F)) (k0_pay13 i x0 x1) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz, View.readCov_unit_zero (S := S2048x1) _ hz]

theorem sA1 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i) (x0 : Vec F S2048x256 .bf16) (x1 : Vec F S1024x256 .bf16) (x2 : Vec F S2048x1 .i32) :
    sout0_A_1 c i arg2 harg2 arg3 harg3 arg4 harg4 arg5 harg5 arg6 harg6 arg7 harg7 arg8 harg8 arg9 harg9 hc0 hc1 x0 x1 x2 = k0_pay2 (k0_pay10 i x0 x1) (k0_pay6 (F := F)) (k0_pay13 i x0 x1) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz, View.readCov_unit_zero (S := S2048x1) _ hz]

theorem sA2 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i) (x0 : Vec F S2048x256 .bf16) (x1 : Vec F S1024x256 .bf16) (x2 : Vec F S2048x1 .i32) :
    sout0_A_2 c i arg2 harg2 arg3 harg3 arg4 harg4 arg5 harg5 arg6 harg6 arg7 harg7 arg8 harg8 arg9 harg9 hc0 hc1 x0 x1 x2 = k0_pay12 i x0 x1 x2 (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz, View.readCov_unit_zero (S := S2048x1) _ hz]

/-! ## A middle column tile: the carried buffers are updated from what the point before left -/

theorem sB0 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_B_0 c i arg2 harg2 arg3 harg3 arg4 harg4 arg5 harg5 arg6 harg6 arg7 harg7 arg8 harg8 arg9 harg9 hc0 hc1 x0 x1 x2 xs0 xs1 xs2 = k0_pay3 xs0 (k0_pay13 i x0 x1) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

theorem sB1 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_B_1 c i arg2 harg2 arg3 harg3 arg4 harg4 arg5 harg5 arg6 harg6 arg7 harg7 arg8 harg8 arg9 harg9 hc0 hc1 x0 x1 x2 xs0 xs1 xs2 = k0_pay2 (k0_pay10 i x0 x1) xs0 (k0_pay13 i x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

theorem sB2 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_B_2 c i arg2 harg2 arg3 harg3 arg4 harg4 arg5 harg5 arg6 harg6 arg7 harg7 arg8 harg8 arg9 harg9 hc0 hc1 x0 x1 x2 xs0 xs1 xs2 = k0_pay12 i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

/-! ## The last column tile: the same update, then the row's loss and its validity flag are stored -/

theorem sC0 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_C_0 c i arg2 harg2 arg3 harg3 arg4 harg4 arg5 harg5 arg6 harg6 arg7 harg7 arg8 harg8 arg9 harg9 hc0 hc1 x0 x1 x2 xs0 xs1 xs2 = k0_pay3 xs0 (k0_pay13 i x0 x1) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

theorem sC1 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_C_1 c i arg2 harg2 arg3 harg3 arg4 harg4 arg5 harg5 arg6 harg6 arg7 harg7 arg8 harg8 arg9 harg9 hc0 hc1 x0 x1 x2 xs0 xs1 xs2 = k0_pay2 (k0_pay10 i x0 x1) xs0 (k0_pay13 i x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

theorem sC2 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    sout0_C_2 c i arg2 harg2 arg3 harg3 arg4 harg4 arg5 harg5 arg6 harg6 arg7 harg7 arg8 harg8 arg9 harg9 hc0 hc1 x0 x1 x2 xs0 xs1 xs2 = k0_pay12 i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

theorem oC3 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    out0_C_3 c i arg2 harg2 arg3 harg3 arg4 harg4 arg5 harg5 arg6 harg6 arg7 harg7 arg8 harg8 arg9 harg9 hc0 hc1 x0 x1 x2 xs0 xs1 xs2
      = k0_pay5 (k0_pay11 x2) (k0_pay12 i x0 x1 x2 xs2) (k0_pay3 xs0 (k0_pay13 i x0 x1))
          (k0_pay2 (k0_pay10 i x0 x1) xs0 (k0_pay13 i x0 x1) xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz, View.readCov_unit_zero (S := S2048x1) _ hz]

theorem oC4 (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i) (x0 : Vec F S2048x256 .bf16) (x1 : Vec F S1024x256 .bf16) (x2 : Vec F S2048x1 .i32) (xs0 : Vec F S2048x1 .f32) (xs1 : Vec F S2048x1 .f32) (xs2 : Vec F S2048x1 .f32) :
    out0_C_4 c i arg2 harg2 arg3 harg3 arg4 harg4 arg5 harg5 arg6 harg6 arg7 harg7 arg8 harg8 arg9 harg9 hc0 hc1 x0 x1 x2 xs0 xs1 xs2 = k0_pay4 (F := F) (k0_pay11 x2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x1) hz, View.ld_unit_zero (S := S2048x256) hz, View.ld_unit_zero (S := S1024x256) hz]

end Cert.KernelIdeal.Pieces

end
-- ==== Proof.PayIdx.lean ====
/-
  The kernel body's arithmetic read one row at a time, on the extended reals: each stored value at row `p` is the
  row's update of the running maximum, the running sum and the selected score by one tile of 1024 scores.
-/
import proofs.«412923_j54760833024747_1_alg».proof.Proof.Gen.KernelIdeal.Skeleton
import proofs.«412923_j54760833024747_1_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.PayIdx

open Cert.KernelIdeal Cert.KernelIdeal.Gen Cert.OimLoss Idealize.ShloMosaic Idealize.ShloMosaic.ValueIdx

/-- Row `p` of a block of features. -/
def xrow (x0 : Vec Ideal S2048x256 .bf16) (p : Fin 2048) : Fin 256 → EReal := fun d => x0 (ix2 p d)
/-- Row `j` of a tile of the table. -/
def wrow (x1 : Vec Ideal S1024x256 .bf16) (j : Fin 1024) : Fin 256 → EReal := fun d => x1 (ix2 j d)

/-! ## Constants -/

/-- The pattern of minus infinity is the bottom element. -/
theorem negInf : Ideal.ofBits .f32 0xFF800000#32 = ⊥ := by
  simp [Ideal.ofBits, Ideal.ieee]

/-- The named padding score is the bottom element. -/
theorem neg_big : Named.named (F := Ideal) κ "neg_big" (φ := .f32) 0xFF333332#32 = ⊥ :=
  IdealRules.named_const.ideal_named_scalar _ _ _ _ rfl

/-! ## Words -/

/-- The signed comparison of a small column number with the number of real columns. -/
theorem slt_col (c : ℕ) (hc : c < 2 ^ 31) :
    IntOp.cmpi .slt (BitVec.ofNat 32 c) 10532#32 = if c < 10532 then 1#1 else 0#1 := by
  have key := StableHlo.Predicate.slt_ofNat_iff c 10532 hc (by norm_num)
  by_cases h : c < 10532
  · rw [if_pos h]; exact key.mpr h
  · rw [if_neg h]; exact eq_zero_of_ne_one fun h1 => h (key.mp h1)

/-- A select on the equality of two words is the `if` on it. -/
theorem select_eq_word {α : Type} (a b : BitVec 32) (x y : α) :
    Scalar.select (IntOp.cmpi .eq a b) x y = if a = b then x else y := by
  by_cases h : a = b
  · rw [if_pos h, StableHlo.Predicate.cmpi_eq_iff.mpr h]; exact select_one _ _
  · rw [if_neg h, eq_zero_of_ne_one fun h1 => h (StableHlo.Predicate.cmpi_eq_iff.mp h1)]; exact select_zero _ _

/-- The flag "the label is not the ignored one", widened and converted, is 1 or 0. -/
theorem sitofp_ne_word (lab : BitVec 32) :
    ((((IntOp.cmpi .ne lab 5554#32).setWidth 32).toInt : ℝ) : EReal) = if lab ≠ 5554#32 then 1 else 0 := by
  by_cases h : lab = 5554#32
  · subst h; simp [IntOp.cmpi]
  · have h' : (lab != 5554#32) = true := by simpa using h
    simp [IntOp.cmpi, h', h]

/-- The validity flag is above zero exactly on a row that counts. -/
theorem ogt_valid (lab : BitVec 32) :
    Ideal.cmp .ogt (validK lab) (Ideal.ofBits .f32 0x00000000#32) = if lab ≠ 5554#32 then 1#1 else 0#1 := by
  rw [Ideal.ofBits_zero_f32]
  unfold validK Ideal.cmp
  by_cases h : lab = 5554#32
  · subst h; simp
  · simp [h]

/-! ## Layout operations and reductions at a row -/

/-- A vector of 2048 entries viewed as a column reads, at (p, 0), its entry p. -/
theorem colCast_apply {α : Type} (x : S2048.Idx → α) (p : Fin 2048) :
    shapeCast S2048x1 x shapeCasts_S2048_S2048x1 (ix2 p (0 : Fin 1)) = x (ix1 p) :=
  shapeCast_apply x shapeCasts_S2048_S2048x1 _ _ (by
    rw [Shape.rowMajor_val_two, Shape.rowMajor_val_one]
    show p.val = p.val * 1 + 0
    omega)

/-- A column broadcast along the lanes reads, at (p, j), the column's entry p. -/
theorem colBcast_apply {α : Type} (x : S2048x1.Idx → α) (p : Fin 2048) (j : Fin 1024) :
    broadcastTo S2048x1024 x broadcasts_S2048x1_S2048x1024 (ix2 p j) = x (ix2 p (0 : Fin 1)) := by
  refine broadcastTo_apply x broadcasts_S2048x1_S2048x1024 (ix2 p j) (ix2 p (0 : Fin 1)) fun ax => ?_
  match ax with
  | ⟨0, _⟩ => rfl
  | ⟨1, _⟩ => rfl

/-- The lane sum at row p. -/
theorem laneSum_apply (v : FVec Ideal S2048x1024 .f32) (p : Fin 2048) :
    multiReduction (F := Ideal) .add [1] S2048 v 0x00000000#32 reduces_S2048x1024_S2048 (.inl rfl) rfl (ix1 p)
      = ∑ j : Fin 1024, v (ix2 p j) := by
  refine (Ideal.multiReduction_add_single v 0x00000000#32 reduces_S2048x1024_S2048 (.inl rfl) rfl (ix1 p)).trans ?_
  show ∑ k : Fin 1024, v (reduces_S2048x1024_S2048.lift (ix1 p) k) = _
  refine Finset.sum_congr rfl fun k _ => congrArg v (funext fun a => Fin.ext ?_)
  match a with
  | ⟨0, _⟩ => rfl
  | ⟨1, _⟩ => rfl

/-- The lane maximum at row p, from the bottom element. -/
theorem laneMax_apply (v : FVec Ideal S2048x1024 .f32) (p : Fin 2048) :
    multiReduction (F := Ideal) .maximumf [1] S2048 v 0xFF800000#32 reduces_S2048x1024_S2048 (.inl rfl) rfl (ix1 p)
      = tileMax (fun j => v (ix2 p j)) := by
  refine (Ideal.multiReduction_maximumf_single v 0xFF800000#32 reduces_S2048x1024_S2048 (.inl rfl) rfl (ix1 p)).trans ?_
  show (Finset.univ : Finset (Fin 1024)).fold max (Ideal.ofBits .f32 0xFF800000#32) (v ∘ reduces_S2048x1024_S2048.lift (ix1 p)) = _
  have e2 : (v ∘ reduces_S2048x1024_S2048.lift (ix1 p)) = fun j : Fin 1024 => v (ix2 p j) :=
    funext fun k => congrArg v (funext fun a => Fin.ext (by
      match a with
      | ⟨0, _⟩ => rfl
      | ⟨1, _⟩ => rfl))
  rw [negInf, e2]
  rfl

/-! ## The block product at an entry -/

theorem lhs_mm_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_mm_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_mm_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_mm_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The block product at (p, j): the inner product of row p of the features with row j of the table tile. -/
theorem matmul_pj (x0 : FVec Ideal S2048x256 .bf16) (x1 : FVec Ideal S1024x256 .bf16) (p : Fin 2048) (j : Fin 1024) :
    matmul dot_S2048x256_S1024x256_S2048x1024_1_1_0_0_n_n none x0 x1 (constant (F := Ideal) S2048x1024 .f32 0x00000000#32) (ix2 p j)
      = ∑ k : Fin 256, x0 (ix2 p k) * x1 (ix2 j k) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p j) ((contrEquiv1 dot_S2048x256_S1024x256_S2048x1024_1_1_0_0_n_n 256 rfl rfl).symm k) = ix2 p k := funext fun a => Fin.ext (by
    match a with
    | ⟨0, _⟩ => exact lhs_mm_0 _ _
    | ⟨1, _⟩ => exact (lhs_mm_1 _ _).trans hk)
  have er : dot_S2048x256_S1024x256_S2048x1024_1_1_0_0_n_n.rhsIdx (ix2 p j) ((contrEquiv1 dot_S2048x256_S1024x256_S2048x1024_1_1_0_0_n_n 256 rfl rfl).symm k) = ix2 j k := funext fun a => Fin.ext (by
    match a with
    | ⟨0, _⟩ => exact rhs_mm_0 _ _
    | ⟨1, _⟩ => exact (rhs_mm_1 _ _).trans hk)
  rw [el, er]

/-! ## The payloads -/

/-- The column number of entry (p, j) of tile `i 1`. -/
theorem pay9_apply (i : grid0.Coords) (p : Fin 2048) (j : Fin 1024) :
    k0_pay9 i (ix2 p j) = BitVec.ofNat 32 (1024 * (i 1).val + j.val) := by
  unfold k0_pay9
  show BitVec.ofNat 32 (i 1).val * 1024#32 + iota .tc S2048x1024 32 [1] iota_S2048x1024_d1_w32 (ix2 p j) = _
  refine (congrArg (BitVec.ofNat 32 (i 1).val * 1024#32 + ·) (iota_single_apply .tc S2048x1024 32 1 iota_S2048x1024_d1_w32 (ix2 p j))).trans ?_
  show BitVec.ofNat 32 (i 1).val * 1024#32 + BitVec.ofNat 32 j.val = _
  apply BitVec.eq_of_toNat_eq
  simp only [BitVec.toNat_add, BitVec.toNat_mul, BitVec.toNat_ofNat]
  omega

/-- The labels pass through their cast to the same shape. -/
theorem pay11_eq (x2 : Vec Ideal S2048x1 .i32) : k0_pay11 (F := Ideal) x2 = x2 := shapeCast_self _ _

/-- The tile of scores of row `p`: the scaled inner products with the tile's 1024 table rows, `⊥` on padding columns. -/
theorem pay10_apply (i : grid0.Coords) (x0 : Vec Ideal S2048x256 .bf16) (x1 : Vec Ideal S1024x256 .bf16)
    (p : Fin 2048) (j : Fin 1024) :
    k0_pay10 (F := Ideal) i x0 x1 (ix2 p j)
      = if 1024 * (i 1).val + j.val < 10532 then dot (xrow x0 p) (wrow x1 j) * scale else ⊥ := by
  unfold k0_pay10
  show Scalar.select (IntOp.cmpi .slt (k0_pay9 i (ix2 p j)) 10532#32)
      (matmul dot_S2048x256_S1024x256_S2048x1024_1_1_0_0_n_n none (shapeCast S2048x256 x0 shapeCasts_S2048x256_S2048x256)
          (shapeCast S1024x256 x1 shapeCasts_S1024x256_S1024x256) (constant (F := Ideal) S2048x1024 .f32 0x00000000#32) (ix2 p j)
        * Ideal.ofBits .f32 0x41F00000#32)
      (Named.named (F := Ideal) κ "neg_big" (φ := .f32) 0xFF333332#32) = _
  have hk : (i 1).val < 11 := (i 1).isLt
  have hj : j.val < 1024 := j.isLt
  rw [shapeCast_self, shapeCast_self, matmul_pj, pay9_apply, neg_big, slt_col _ (by omega)]
  by_cases h : 1024 * (i 1).val + j.val < 10532
  · rw [if_pos h, if_pos h]; exact select_one _ _
  · rw [if_neg h, if_neg h]; exact select_zero _ _

/-- The tile's maximum at row `p`. -/
theorem pay13_apply (i : grid0.Coords) (x0 : Vec Ideal S2048x256 .bf16) (x1 : Vec Ideal S1024x256 .bf16) (p : Fin 2048) :
    k0_pay13 (F := Ideal) i x0 x1 (ix2 p (0 : Fin 1)) = tileMax (fun j => k0_pay10 (F := Ideal) i x0 x1 (ix2 p j)) := by
  unfold k0_pay13
  refine (colCast_apply _ p).trans ?_
  exact laneMax_apply _ p

/-- The new maximum at row `p`: the larger of the old one and the tile's. -/
theorem pay1_apply (v31 : Vec Ideal S2048x1 .f32) (v33 : FVec Ideal S2048x1 .f32) (p : Fin 2048) :
    k0_pay1 v31 v33 (ix2 p (0 : Fin 1)) = max (v31 (ix2 p (0 : Fin 1))) (v33 (ix2 p (0 : Fin 1))) := rfl

/-- The running maximum's update at row `p`. -/
theorem pay3_apply (i : grid0.Coords) (x0 : Vec Ideal S2048x256 .bf16) (x1 : Vec Ideal S1024x256 .bf16)
    (v31 : Vec Ideal S2048x1 .f32) (p : Fin 2048) :
    k0_pay3 v31 (k0_pay13 (F := Ideal) i x0 x1) (ix2 p (0 : Fin 1))
      = nextM (v31 (ix2 p (0 : Fin 1))) (fun j => k0_pay10 (F := Ideal) i x0 x1 (ix2 p j)) := by
  unfold k0_pay3
  refine (congrFun (shapeCast_self _ _) _).trans ?_
  refine (pay1_apply _ _ p).trans ?_
  unfold nextM
  exact congrArg (max (v31 (ix2 p (0 : Fin 1)))) (pay13_apply i x0 x1 p)

/-- The running sum's update at row `p`. -/
theorem pay2_apply (i : grid0.Coords) (x0 : Vec Ideal S2048x256 .bf16) (x1 : Vec Ideal S1024x256 .bf16)
    (v31 v37 : Vec Ideal S2048x1 .f32) (p : Fin 2048) :
    k0_pay2 (k0_pay10 (F := Ideal) i x0 x1) v31 (k0_pay13 (F := Ideal) i x0 x1) v37 (ix2 p (0 : Fin 1))
      = nextL (v31 (ix2 p (0 : Fin 1))) (v37 (ix2 p (0 : Fin 1))) (fun j => k0_pay10 (F := Ideal) i x0 x1 (ix2 p j)) := by
  have hM : k0_pay1 v31 (k0_pay13 (F := Ideal) i x0 x1) (ix2 p (0 : Fin 1))
      = nextM (v31 (ix2 p (0 : Fin 1))) (fun j => k0_pay10 (F := Ideal) i x0 x1 (ix2 p j)) :=
    (pay1_apply _ _ p).trans (congrArg (max (v31 (ix2 p (0 : Fin 1)))) (pay13_apply i x0 x1 p))
  unfold k0_pay2 nextL
  refine (congrFun (shapeCast_self _ _) _).trans ?_
  refine (addf_apply _ _ _).trans ?_
  refine congrArg₂ (· + ·) ?_ ?_
  · show Ideal.exp (v31 (ix2 p (0 : Fin 1)) - k0_pay1 v31 (k0_pay13 (F := Ideal) i x0 x1) (ix2 p (0 : Fin 1))) * v37 (ix2 p (0 : Fin 1)) = _
    rw [hM]
  · refine (colCast_apply _ p).trans ?_
    refine (laneSum_apply _ p).trans ?_
    refine Finset.sum_congr rfl fun j _ => ?_
    show Ideal.exp (k0_pay10 (F := Ideal) i x0 x1 (ix2 p j)
      - broadcastTo S2048x1024 (k0_pay1 v31 (k0_pay13 (F := Ideal) i x0 x1)) broadcasts_S2048x1_S2048x1024 (ix2 p j)) = _
    rw [colBcast_apply, hM]

/-- The selected score's update at row `p`. -/
theorem pay12_apply (i : grid0.Coords) (x0 : Vec Ideal S2048x256 .bf16) (x1 : Vec Ideal S1024x256 .bf16)
    (x2 : Vec Ideal S2048x1 .i32) (v22 : Vec Ideal S2048x1 .f32) (p : Fin 2048) :
    k0_pay12 (F := Ideal) i x0 x1 x2 v22 (ix2 p (0 : Fin 1))
      = nextSel (i 1).val (x2 (ix2 p (0 : Fin 1))) (v22 (ix2 p (0 : Fin 1)))
          (fun j => k0_pay10 (F := Ideal) i x0 x1 (ix2 p j)) := by
  unfold k0_pay12 nextSel
  refine (congrFun (shapeCast_self _ _) _).trans ?_
  refine (addf_apply _ _ _).trans ?_
  refine congrArg (v22 (ix2 p (0 : Fin 1)) + ·) ?_
  refine (colCast_apply _ p).trans ?_
  refine (laneSum_apply _ p).trans ?_
  refine Finset.sum_congr rfl fun j _ => ?_
  show Scalar.select (IntOp.cmpi .eq (k0_pay9 i (ix2 p j))
      (broadcastTo S2048x1024 (k0_pay11 (F := Ideal) x2) broadcasts_S2048x1_S2048x1024 (ix2 p j)))
      (k0_pay10 (F := Ideal) i x0 x1 (ix2 p j)) (Ideal.ofBits .f32 0x00000000#32) = _
  rw [colBcast_apply, pay11_eq, pay9_apply, Ideal.ofBits_zero_f32]
  exact select_eq_word _ _ _ _

/-- The row's validity flag. -/
theorem pay4_apply (x2 : Vec Ideal S2048x1 .i32) (p : Fin 2048) :
    k0_pay4 (F := Ideal) (k0_pay11 (F := Ideal) x2) (ix2 p (0 : Fin 1)) = validK (x2 (ix2 p (0 : Fin 1))) := by
  rw [pay11_eq]
  unfold k0_pay4
  exact sitofp_ne_word _

/-- The row's loss as stored at the last tile, from (selected score, maximum, sum). -/
theorem pay5_apply (x2 : Vec Ideal S2048x1 .i32) (v54 v55 v57 : Vec Ideal S2048x1 .f32) (p : Fin 2048) :
    k0_pay5 (F := Ideal) (k0_pay11 (F := Ideal) x2) v54 v55 v57 (ix2 p (0 : Fin 1))
      = nllK (x2 (ix2 p (0 : Fin 1))) (v55 (ix2 p (0 : Fin 1)), v57 (ix2 p (0 : Fin 1)), v54 (ix2 p (0 : Fin 1))) := by
  unfold k0_pay5
  show Scalar.select (Ideal.cmp .ogt (k0_pay4 (F := Ideal) (k0_pay11 (F := Ideal) x2) (ix2 p (0 : Fin 1))) (Ideal.ofBits .f32 0x00000000#32))
      (Ideal.ofBits .f32 0x00000000#32 - ((v54 (ix2 p (0 : Fin 1)) - v55 (ix2 p (0 : Fin 1))) - Ideal.log (v57 (ix2 p (0 : Fin 1)))))
      (Ideal.ofBits .f32 0x00000000#32) = _
  rw [pay4_apply, ogt_valid, Ideal.ofBits_zero_f32]
  unfold nllK
  by_cases h : x2 (ix2 p (0 : Fin 1)) = 5554#32
  · rw [if_neg (not_not.mpr h), if_neg (not_not.mpr h)]; exact select_zero _ _
  · rw [if_pos h, if_pos h]; exact select_one _ _

/-- The reset values: `⊥` for the maximum, 0 for the sum and for the selected score. -/
theorem pay6_apply (p : Fin 2048) : k0_pay6 (F := Ideal) (ix2 p (0 : Fin 1)) = ⊥ := by
  unfold k0_pay6
  refine (congrFun (shapeCast_self _ _) _).trans ?_
  exact negInf
theorem pay7_apply (p : Fin 2048) : k0_pay7 (F := Ideal) (ix2 p (0 : Fin 1)) = 0 := by
  unfold k0_pay7
  refine (congrFun (shapeCast_self _ _) _).trans ?_
  exact Ideal.ofBits_zero_f32
theorem pay8_apply (p : Fin 2048) : k0_pay8 (F := Ideal) (ix2 p (0 : Fin 1)) = 0 := by
  unfold k0_pay8
  refine (congrFun (shapeCast_self _ _) _).trans ?_
  exact Ideal.ofBits_zero_f32

end Cert.KernelIdeal.PayIdx

end
-- ==== Proof.Blocks.lean ====
/-
  The blocks the kernel is given at grid point `t` (row block `t / 11`, column tile `t % 11`), read entry by entry
  from the program's arguments: the feature block is rows `2048 (t / 11) + p` of the features (the change of float
  format before the call is the identity on the extended reals), the table tile is rows `1024 (t % 11) + j` of the
  look-up table followed by the queue followed by zero padding, and the label block is the given ids minus one.
-/
import proofs.«412923_j54760833024747_1_alg».proof.Proof.Gen.KernelIdeal.Frame.Runs
import proofs.«412923_j54760833024747_1_alg».proof.Proof.Spec
import Idealize.ShloMosaic.Lib.ValueIdx
import Idealize.ShloMosaic.Lib.Pipeline.Value
import Idealize.ShloMosaic.Lib.KernelVsHost

set_option maxRecDepth 16384

noncomputable section

namespace Cert.KernelIdeal.Blocks

open Cert.KernelIdeal Cert.KernelIdeal.Gen Cert.OimLoss Idealize.ShloMosaic Idealize.ShloMosaic.TcCoe Idealize.ShloMosaic.ValueIdx Idealize.SL.Sem

variable (m : (ℓ : Loc nD τ sig) → Buf (Elt Ideal) ℓ)

/-- The feature block at grid point `t`. -/
abbrev xblk (c : Dev nD) (t : Fin cfg0.N) : Vec Ideal S2048x256 .bf16 := iblk m c 0 t
/-- The table tile at grid point `t`. -/
abbrev wblk (c : Dev nD) (t : Fin cfg0.N) : Vec Ideal S1024x256 .bf16 := iblk m c 1 t
/-- The label block at grid point `t`. -/
abbrev lblk (c : Dev nD) (t : Fin cfg0.N) : Vec Ideal S2048x1 .i32 := iblk m c 2 t

/-- The array row that row `p` of grid point `t`'s blocks is. -/
def gridRow (t : Fin cfg0.N) (p : Fin 2048) : Fin 8192 :=
  ⟨2048 * (t.val / 11) + p.val, by have := lt_of_lt_of_eq t.isLt (show cfg0.N = 44 from N_0); have := p.isLt; omega⟩

/-- The column tile of grid point `t`. -/
theorem coord1 (t : Fin cfg0.N) : ((grid0.coords t) 1).val = t.val % 11 :=
  (by decide +kernel : ∀ t : Fin grid0.N, ((grid0.coords t) 1).val = t.val % 11) t

/-- The program's arguments, as arrays. -/
abbrev argX (c : Dev nD) : (⟨2, ![8192, 256]⟩ : Shape).Idx → EReal := m ((c.tc : Thread nD τ).loc main_arg0)
abbrev argA (c : Dev nD) : (⟨1, ![8192]⟩ : Shape).Idx → BitVec 32 := m ((c.tc : Thread nD τ).loc main_arg1)
abbrev argLut (c : Dev nD) : (⟨2, ![5532, 256]⟩ : Shape).Idx → EReal := m ((c.tc : Thread nD τ).loc main_arg2)
abbrev argCq (c : Dev nD) : (⟨2, ![5000, 256]⟩ : Shape).Idx → EReal := m ((c.tc : Thread nD τ).loc main_arg3)

/-- The windows' block indices at grid point `t`: row block `t / 11` for the features and the labels, column tile
    `t % 11` for the table, and block 0 along the second axis. -/
theorem idx_facts : ∀ t : Fin cfg0.N,
    win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val / 11 ∧ win0_2.index t (1 : Fin 2) = 0 :=
  (by decide +kernel : ∀ t : Fin grid0.N, _)

/-! ## The arrays the region finds -/

/-- The feature array the region finds: the features in the narrower float format. -/
theorem V_v5 (c : Dev nD) :
    @Eq (S8192x256.Idx → EReal) (V m c main_v5) (truncf (F := Ideal) .bf16 (argX m c) bitsLt_bf16_f32) := by
  dsimp only [Gen.V, Gen.V0]
  simp only [Gen.hostOps0, Gen.hostOps0_1, Gen.hostOps0_2, List.flatten_cons, List.flatten_nil, List.append_nil, List.cons_append, List.nil_append]
  after_results

/-- The table the region finds: look-up table and queue laid end to end, padded with zero rows, in the narrower format. -/
theorem V_v6 (c : Dev nD) :
    @Eq (S11264x256.Idx → EReal) (V m c main_v6)
      (truncf (F := Ideal) .bf16
        (pad S11264x256 ![0, 0] ![732, 0] ![0, 0]
          (concatenate S10532x256 0 [⟨S5532x256, argLut m c⟩, ⟨S5000x256, argCq m c⟩] concatenates_S5532x256_S5000x256_S10532x256_d0)
          (sitofp (F := Ideal) .f32 (constantI S_ 32 0#32)) pads_S10532x256_S11264x256_07320_000 h_S_)
        bitsLt_bf16_f32) := by
  dsimp only [Gen.V, Gen.V0]
  simp only [Gen.hostOps0, Gen.hostOps0_1, Gen.hostOps0_2, List.flatten_cons, List.flatten_nil, List.append_nil, List.cons_append, List.nil_append]
  after_results
  try rfl

/-- The label array the region finds: the ids minus one, as a column. -/
theorem V_v2 (c : Dev nD) :
    @Eq (S8192x1.Idx → BitVec 32) (V m c main_v2)
      (shapeCast S8192x1 (subi (argA m c) (broadcastInDim S8192 ![] bcast_S_S8192 (constantI S_ 32 1#32))) shapeCasts_S8192_S8192x1) := by
  dsimp only [Gen.V, Gen.V0]
  simp only [Gen.hostOps0, Gen.hostOps0_1, Gen.hostOps0_2, List.flatten_cons, List.flatten_nil, List.append_nil, List.cons_append, List.nil_append]
  after_results
  try rfl

/-! ## The arrays entry by entry -/

/-- The feature array the region finds, entry by entry: the features. -/
theorem v5_apply (c : Dev nD) (i : S8192x256.Idx) : (V m c main_v5 : S8192x256.Idx → EReal) i = argX m c i :=
  congrFun (V_v5 m c) i

/-- A row of the table below 5532 is the look-up table's row. -/
theorem v6_lut (c : Dev nD) (q : Fin 5532) (d : Fin 256) (r : Fin 11264) (hr : r.val = q.val) :
    (V m c main_v6 : S11264x256.Idx → EReal) (ix2 r d) = argLut m c (ix2 q d) := by
  refine (congrFun (V_v6 m c) (ix2 r d)).trans ?_
  show pad S11264x256 ![0, 0] ![732, 0] ![0, 0]
          (concatenate S10532x256 0 [⟨S5532x256, argLut m c⟩, ⟨S5000x256, argCq m c⟩] concatenates_S5532x256_S5000x256_S10532x256_d0)
          (sitofp (F := Ideal) .f32 (constantI S_ 32 0#32)) pads_S10532x256_S11264x256_07320_000 h_S_ (ix2 r d) = _
  have hq := q.isLt
  refine (pad_apply_of_inside _ _ _ _ _ _ _ (ix2 r d) (ix2 (⟨r.val, by omega⟩ : Fin 10532) d) ?_).trans ?_
  · intro a
    match a with
    | ⟨0, _⟩ => show r.val = 0 + r.val * (0 + 1); omega
    | ⟨1, _⟩ => show d.val = 0 + d.val * (0 + 1); omega
  · exact concatenate_pair_apply_left (t := S10532x256) (s₁ := S5532x256) (s₂ := S5000x256) 0 (argLut m c) (argCq m c)
      concatenates_S5532x256_S5000x256_S10532x256_d0 (ix2 (⟨r.val, by omega⟩ : Fin 10532) d) rfl (ix2 q d)
      (fun b => match b with | ⟨0, _⟩ => hr.symm | ⟨1, _⟩ => rfl)

/-- A row of the table from 5532 to below 10532 is the queue's row, 5532 less. -/
theorem v6_cq (c : Dev nD) (q : Fin 5000) (d : Fin 256) (r : Fin 11264) (hr : r.val = 5532 + q.val) :
    (V m c main_v6 : S11264x256.Idx → EReal) (ix2 r d) = argCq m c (ix2 q d) := by
  refine (congrFun (V_v6 m c) (ix2 r d)).trans ?_
  show pad S11264x256 ![0, 0] ![732, 0] ![0, 0]
          (concatenate S10532x256 0 [⟨S5532x256, argLut m c⟩, ⟨S5000x256, argCq m c⟩] concatenates_S5532x256_S5000x256_S10532x256_d0)
          (sitofp (F := Ideal) .f32 (constantI S_ 32 0#32)) pads_S10532x256_S11264x256_07320_000 h_S_ (ix2 r d) = _
  have hq := q.isLt
  refine (pad_apply_of_inside _ _ _ _ _ _ _ (ix2 r d) (ix2 (⟨r.val, by omega⟩ : Fin 10532) d) ?_).trans ?_
  · intro a
    match a with
    | ⟨0, _⟩ => show r.val = 0 + r.val * (0 + 1); omega
    | ⟨1, _⟩ => show d.val = 0 + d.val * (0 + 1); omega
  · refine concatenate_pair_apply_right (t := S10532x256) (s₁ := S5532x256) (s₂ := S5000x256) 0 (argLut m c) (argCq m c)
      concatenates_S5532x256_S5000x256_S10532x256_d0 (ix2 (⟨r.val, by omega⟩ : Fin 10532) d) rfl rfl (ix2 q d) ?_ ?_
    · intro b hb
      match b, hb with
      | ⟨0, _⟩, hb => exact absurd rfl hb
      | ⟨1, _⟩, _ => rfl
    · show q.val + 5532 = r.val
      omega

/-- A row of the table from 10532 on is zero. -/
theorem v6_zero (c : Dev nD) (d : Fin 256) (r : Fin 11264) (hr : 10532 ≤ r.val) :
    (V m c main_v6 : S11264x256.Idx → EReal) (ix2 r d) = (0 : EReal) := by
  refine (congrFun (V_v6 m c) (ix2 r d)).trans ?_
  show pad S11264x256 ![0, 0] ![732, 0] ![0, 0]
          (concatenate S10532x256 0 [⟨S5532x256, argLut m c⟩, ⟨S5000x256, argCq m c⟩] concatenates_S5532x256_S5000x256_S10532x256_d0)
          (sitofp (F := Ideal) .f32 (constantI S_ 32 0#32)) pads_S10532x256_S11264x256_07320_000 h_S_ (ix2 r d) = _
  refine (pad_apply_of_not_inside _ _ _ _ _ _ _ (ix2 r d) (0 : Fin 2) ?_).trans ?_
  · intro hin
    have h3 : (r.val - 0) / (0 + 1) < 10532 := hin.2.2
    rw [Nat.sub_zero, Nat.zero_add, Nat.div_one] at h3
    omega
  · exact sitofp_zero (φ := .f32)

/-- The table the region finds, row by row. -/
theorem v6_apply (c : Dev nD) (r : Fin 11264) (d : Fin 256) :
    (V m c main_v6 : S11264x256.Idx → EReal) (ix2 r d) = wpad (argLut m c) (argCq m c) r.val d := by
  unfold wpad
  by_cases h : r.val < 5532
  · rw [dif_pos h]
    exact v6_lut m c ⟨r.val, h⟩ d r rfl
  · rw [dif_neg h]
    by_cases h2 : r.val < 10532
    · rw [dif_pos h2]
      exact v6_cq m c ⟨r.val - 5532, by omega⟩ d r (by show r.val = 5532 + (r.val - 5532); omega)
    · rw [dif_neg h2]
      exact v6_zero m c d r (by omega)

/-- The label array the region finds, row by row: the id minus one. -/
theorem v2_apply (c : Dev nD) (r : Fin 8192) :
    (V m c main_v2 : S8192x1.Idx → BitVec 32) (ix2 r (0 : Fin 1)) = labOf (argA m c) r := by
  refine (congrFun (V_v2 m c) (ix2 r (0 : Fin 1))).trans ?_
  refine (shapeCast_apply _ _ (ix2 r (0 : Fin 1)) (ix1 r) ?_).trans ?_
  · rw [Shape.rowMajor_val_two, Shape.rowMajor_val_one]
    show r.val = r.val * 1 + 0
    omega
  · rfl

/-! ## The blocks, entry by entry -/

theorem xblk_apply (c : Dev nD) (t : Fin cfg0.N) (p : Fin 2048) (d : Fin 256) :
    xblk m c t (ix2 p d) = rowOf (argX m c) (gridRow t p) d := by
  obtain ⟨e0, e1, -⟩ := idx_facts t
  show (V m c main_v5 : S8192x256.Idx → EReal) (((cfg0.win 0).blk t).view.emb (ix2 p d)) = argX m c (ix2 (gridRow t p) d)
  rw [v5_apply]
  refine congrArg (argX m c) ?_
  funext a
  apply Fin.ext
  match a with
  | ⟨0, _⟩ => show win0_0.index t (0 : Fin 2) * 2048 + 1 * p.val = 2048 * (t.val / 11) + p.val; omega
  | ⟨1, _⟩ => show win0_0.index t (1 : Fin 2) * 256 + 1 * d.val = d.val; omega

theorem wblk_apply (c : Dev nD) (t : Fin cfg0.N) (j : Fin 1024) (d : Fin 256) :
    wblk m c t (ix2 j d) = wpad (argLut m c) (argCq m c) (1024 * (t.val % 11) + j.val) d := by
  obtain ⟨-, -, e0, e1, -⟩ := idx_facts t
  have hj := j.isLt
  have ht : t.val % 11 < 11 := Nat.mod_lt _ (by decide)
  show (V m c main_v6 : S11264x256.Idx → EReal) (((cfg0.win 1).blk t).view.emb (ix2 j d)) = _
  have hi : ((cfg0.win 1).blk t).view.emb (ix2 j d) = ix2 (⟨1024 * (t.val % 11) + j.val, by omega⟩ : Fin 11264) d := by
    funext a
    apply Fin.ext
    match a with
    | ⟨0, _⟩ => show win0_1.index t (0 : Fin 2) * 1024 + 1 * j.val = 1024 * (t.val % 11) + j.val; omega
    | ⟨1, _⟩ => show win0_1.index t (1 : Fin 2) * 256 + 1 * d.val = d.val; omega
  rw [hi]
  exact v6_apply m c ⟨1024 * (t.val % 11) + j.val, by omega⟩ d

theorem lblk_apply (c : Dev nD) (t : Fin cfg0.N) (p : Fin 2048) :
    lblk m c t (ix2 p (0 : Fin 1)) = labOf (argA m c) (gridRow t p) := by
  obtain ⟨-, -, -, -, e0, e1⟩ := idx_facts t
  show (V m c main_v2 : S8192x1.Idx → BitVec 32) (((cfg0.win 2).blk t).view.emb (ix2 p (0 : Fin 1))) = _
  have hi : ((cfg0.win 2).blk t).view.emb (ix2 p (0 : Fin 1)) = ix2 (gridRow t p) (0 : Fin 1) := by
    funext a
    apply Fin.ext
    match a with
    | ⟨0, _⟩ => show win0_2.index t (0 : Fin 2) * 2048 + 1 * p.val = 2048 * (t.val / 11) + p.val; omega
    | ⟨1, _⟩ => show win0_2.index t (1 : Fin 2) * 1 + 1 * 0 = 0; omega
  rw [hi]
  exact v2_apply m c (gridRow t p)

end Cert.KernelIdeal.Blocks

end
-- ==== Proof.Invariant.lean ====
/-
  The invariant of the grid walk: after grid point `t` (row block `t / 11`, column tile `t % 11`) the three carried
  buffers hold, at each row `p`, the running maximum, running sum and selected score of array row
  `2048 (t / 11) + p` after tiles `0 … t % 11`; and at a last tile the two outputs hold that row's loss and
  validity flag.
-/
import proofs.«412923_j54760833024747_1_alg».proof.Proof.Gen.KernelIdeal.Frame
import proofs.«412923_j54760833024747_1_alg».proof.Proof.Pieces
import proofs.«412923_j54760833024747_1_alg».proof.Proof.PayIdx
import proofs.«412923_j54760833024747_1_alg».proof.Proof.Blocks
import proofs.«412923_j54760833024747_1_alg».proof.Proof.Spec

set_option maxRecDepth 16384

noncomputable section

namespace Cert.KernelIdeal.Invariant

open Cert.KernelIdeal Cert.KernelIdeal.Gen Cert.KernelIdeal.Blocks Cert.KernelIdeal.PayIdx Cert.KernelIdeal.Pieces Cert.OimLoss
open Idealize.ShloMosaic Idealize.ShloMosaic.TcCoe Idealize.ShloMosaic.ValueIdx Idealize.SL.Sem

variable (m : (ℓ : Loc nD τ sig) → Buf (Elt Ideal) ℓ)

/-- Array row `r`'s (maximum, sum, selected score) after tiles `0 … k`, of the program's arguments. -/
def rowSt (c : Dev nD) (r : Fin 8192) (k : ℕ) : EReal × EReal × EReal :=
  st (rowOf (argX m c) r) (wpad (argLut m c) (argCq m c)) (labOf (argA m c) r) k

/-- The tile of scores the body computes at point `t`, row `p`, is tile `t % 11` of that array row. -/
theorem tile_at (c : Dev nD) (t : Fin cfg0.N) (p : Fin 2048) :
    (fun j : Fin 1024 => k0_pay10 (F := Ideal) (grid0.coords t) (xblk m c t) (wblk m c t) (ix2 p j))
      = tile (rowOf (argX m c) (gridRow t p)) (wpad (argLut m c) (argCq m c)) (t.val % 11) := by
  funext j
  refine (pay10_apply (grid0.coords t) (xblk m c t) (wblk m c t) p j).trans ?_
  have hx : xrow (xblk m c t) p = rowOf (argX m c) (gridRow t p) := funext fun d => xblk_apply m c t p d
  have hw : wrow (wblk m c t) j = wpad (argLut m c) (argCq m c) (1024 * (t.val % 11) + j.val) :=
    funext fun d => wblk_apply m c t j d
  rw [hx, hw, coord1 t]
  rfl

/-- Row `p` of the three carried buffers after point `n`. -/
def scr (c : Dev nD) (n : ℕ) (hn : n < cfg0.N) (p : Fin 2048) : EReal × EReal × EReal :=
  ((outsAt0 m c n hn).2.2.1 (ix2 p (0 : Fin 1)), (outsAt0 m c n hn).2.2.2.1 (ix2 p (0 : Fin 1)),
    (outsAt0 m c n hn).2.2.2.2 (ix2 p (0 : Fin 1)))

/-- At a first column tile the carried row is one update of (`⊥`, 0, 0) by the point's tile. -/
theorem scr_A (c : Dev nD) (t : Fin cfg0.N) (h0 : t.val % 11 = 0) (p : Fin 2048) :
    scr m c t.val t.isLt p = step (t.val % 11) (labOf (argA m c) (gridRow t p)) (⊥, 0, 0) (tile (rowOf (argX m c) (gridRow t p)) (wpad (argLut m c) (argCq m c)) (t.val % 11)) := by
  have h1 : ¬ t.val % 11 = 10 := by omega
  unfold scr step
  rw [outsAt0_A m c t h0 h1]; dsimp only
  refine congrArg₂ Prod.mk ?_ (congrArg₂ Prod.mk ?_ ?_)
  · refine (congrFun (sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)) (ix2 p (0 : Fin 1))).trans ?_
    refine (pay3_apply (grid0.coords t) (xblk m c t) (wblk m c t) (k0_pay6 (F := Ideal)) p).trans ?_
    rw [pay6_apply p, tile_at m c t p]
  · refine (congrFun (sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)) (ix2 p (0 : Fin 1))).trans ?_
    refine (pay2_apply (grid0.coords t) (xblk m c t) (wblk m c t) (k0_pay6 (F := Ideal)) (k0_pay7 (F := Ideal)) p).trans ?_
    rw [pay6_apply p, pay7_apply p, tile_at m c t p]
  · refine (congrFun (sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)) (ix2 p (0 : Fin 1))).trans ?_
    refine (pay12_apply (grid0.coords t) (xblk m c t) (wblk m c t) (lblk m c t) (k0_pay8 (F := Ideal)) p).trans ?_
    rw [pay8_apply p, tile_at m c t p, lblk_apply m c t p, coord1 t]

/-- At a middle column tile the carried row is one update of what the point before left. -/
theorem scr_B (c : Dev nD) (t : Fin cfg0.N) (h0 : ¬ t.val % 11 = 0) (h1 : ¬ t.val % 11 = 10) (p : Fin 2048) :
    scr m c t.val t.isLt p = step (t.val % 11) (labOf (argA m c) (gridRow t p)) (scr m c (t.val - 1) (Nat.lt_of_le_of_lt (Nat.sub_le _ _) t.isLt) p) (tile (rowOf (argX m c) (gridRow t p)) (wpad (argLut m c) (argCq m c)) (t.val % 11)) := by
  unfold scr step
  rw [outsAt0_B m c t h0 h1]; dsimp only
  refine congrArg₂ Prod.mk ?_ (congrArg₂ Prod.mk ?_ ?_)
  · refine (congrFun (sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay3_apply (grid0.coords t) (xblk m c t) (wblk m c t) (outsAt0 m c (t.val - 1) (Nat.lt_of_le_of_lt (Nat.sub_le _ _) t.isLt)).2.2.1 p).trans ?_
    rw [tile_at m c t p]
  · refine (congrFun (sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay2_apply (grid0.coords t) (xblk m c t) (wblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 p).trans ?_
    rw [tile_at m c t p]
  · refine (congrFun (sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay12_apply (grid0.coords t) (xblk m c t) (wblk m c t) (lblk m c t) (outsAt0 m c (t.val - 1) (Nat.lt_of_le_of_lt (Nat.sub_le _ _) t.isLt)).2.2.2.2 p).trans ?_
    rw [tile_at m c t p, lblk_apply m c t p, coord1 t]

/-- At a last column tile likewise. -/
theorem scr_C (c : Dev nD) (t : Fin cfg0.N) (h0 : ¬ t.val % 11 = 0) (h1 : t.val % 11 = 10) (p : Fin 2048) :
    scr m c t.val t.isLt p = step (t.val % 11) (labOf (argA m c) (gridRow t p)) (scr m c (t.val - 1) (Nat.lt_of_le_of_lt (Nat.sub_le _ _) t.isLt) p) (tile (rowOf (argX m c) (gridRow t p)) (wpad (argLut m c) (argCq m c)) (t.val % 11)) := by
  unfold scr step
  rw [outsAt0_C m c t h0 h1]; dsimp only
  refine congrArg₂ Prod.mk ?_ (congrArg₂ Prod.mk ?_ ?_)
  · refine (congrFun (sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay3_apply (grid0.coords t) (xblk m c t) (wblk m c t) (outsAt0 m c (t.val - 1) (Nat.lt_of_le_of_lt (Nat.sub_le _ _) t.isLt)).2.2.1 p).trans ?_
    rw [tile_at m c t p]
  · refine (congrFun (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay2_apply (grid0.coords t) (xblk m c t) (wblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 p).trans ?_
    rw [tile_at m c t p]
  · refine (congrFun (sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    refine (pay12_apply (grid0.coords t) (xblk m c t) (wblk m c t) (lblk m c t) (outsAt0 m c (t.val - 1) (Nat.lt_of_le_of_lt (Nat.sub_le _ _) t.isLt)).2.2.2.2 p).trans ?_
    rw [tile_at m c t p, lblk_apply m c t p, coord1 t]

/-- The carried row after point `t` is the array row's state after tiles `0 … t % 11`. -/
theorem scr_eq (c : Dev nD) : ∀ (n : ℕ) (t : Fin cfg0.N), t.val = n → ∀ p : Fin 2048,
    scr m c t.val t.isLt p = rowSt m c (gridRow t p) (t.val % 11) := by
  intro n
  induction n using Nat.strong_induction_on with
  | _ n ih =>
    intro t ht p
    have hN : t.val < 44 := lt_of_lt_of_eq t.isLt (show cfg0.N = 44 from N_0)
    by_cases h0 : t.val % 11 = 0
    · rw [scr_A m c t h0 p, h0]; rfl
    · obtain ⟨k, hk⟩ : ∃ k, t.val % 11 = k + 1 := ⟨t.val % 11 - 1, by omega⟩
      have hprev : (scr m c (t.val - 1) (Nat.lt_of_le_of_lt (Nat.sub_le _ _) t.isLt) p) = rowSt m c (gridRow t p) k := by
        have hlt : t.val - 1 < cfg0.N := Nat.lt_of_le_of_lt (Nat.sub_le _ _) t.isLt
        have h := ih (t.val - 1) (by omega) ⟨t.val - 1, hlt⟩ rfl p
        have hg : gridRow ⟨t.val - 1, hlt⟩ p = gridRow t p := by
          apply Fin.ext
          show 2048 * ((t.val - 1) / 11) + p.val = 2048 * (t.val / 11) + p.val
          omega
        have hm : (t.val - 1) % 11 = k := by omega
        rw [hg] at h
        exact h.trans (congrArg (rowSt m c (gridRow t p)) hm)
      by_cases h1 : t.val % 11 = 10
      · rw [scr_C m c t h0 h1 p, hprev, hk]; rfl
      · rw [scr_B m c t h0 h1 p, hprev, hk]; rfl

/-- The carried buffers after point `t`. -/
theorem scratch_after (c : Dev nD) (t : Fin cfg0.N) (p : Fin 2048) :
    ((outsAt0 m c t.val t.isLt).2.2.1 (ix2 p (0 : Fin 1)), (outsAt0 m c t.val t.isLt).2.2.2.1 (ix2 p (0 : Fin 1)),
        (outsAt0 m c t.val t.isLt).2.2.2.2 (ix2 p (0 : Fin 1)))
      = rowSt m c (gridRow t p) (t.val % 11) := by
  exact scr_eq m c t.val t rfl p

/-- At a last column tile the loss output's row is the row's loss from the carried row as this point leaves it. -/
theorem out3_scr (c : Dev nD) (t : Fin cfg0.N) (h0 : ¬ t.val % 11 = 0) (h1 : t.val % 11 = 10) (p : Fin 2048) :
    (outsAt0 m c t.val t.isLt).1 (ix2 p (0 : Fin 1)) = nllK (labOf (argA m c) (gridRow t p)) (scr m c t.val t.isLt p) := by
  unfold scr
  rw [outsAt0_C m c t h0 h1]; dsimp only
  refine (congrFun (oC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
  refine (pay5_apply (lblk m c t) (k0_pay12 (F := Ideal) (grid0.coords t) (xblk m c t) (wblk m c t) (lblk m c t) (outsAt0 m c (t.val - 1) (Nat.lt_of_le_of_lt (Nat.sub_le _ _) t.isLt)).2.2.2.2)
    (k0_pay3 (outsAt0 m c (t.val - 1) (Nat.lt_of_le_of_lt (Nat.sub_le _ _) t.isLt)).2.2.1 (k0_pay13 (F := Ideal) (grid0.coords t) (xblk m c t) (wblk m c t)))
    (k0_pay2 (k0_pay10 (F := Ideal) (grid0.coords t) (xblk m c t) (wblk m c t)) (outsAt0 m c (t.val - 1) (Nat.lt_of_le_of_lt (Nat.sub_le _ _) t.isLt)).2.2.1 (k0_pay13 (F := Ideal) (grid0.coords t) (xblk m c t) (wblk m c t)) (outsAt0 m c (t.val - 1) (Nat.lt_of_le_of_lt (Nat.sub_le _ _) t.isLt)).2.2.2.1) p).trans ?_
  refine congrArg₂ nllK (lblk_apply m c t p) ?_
  refine congrArg₂ Prod.mk ?_ (congrArg₂ Prod.mk ?_ ?_)
  · exact (congrFun (sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).symm
  · exact (congrFun (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).symm
  · exact (congrFun (sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).symm

/-- The loss output's block at a last tile. -/
theorem out3_at (c : Dev nD) (t : Fin cfg0.N) (h1 : t.val % 11 = 10) (p : Fin 2048) :
    (outsAt0 m c t.val t.isLt).1 (ix2 p (0 : Fin 1))
      = nllK (labOf (argA m c) (gridRow t p)) (rowSt m c (gridRow t p) 10) := by
  have h0 : ¬ t.val % 11 = 0 := by omega
  refine (out3_scr m c t h0 h1 p).trans ?_
  rw [scr_eq m c t.val t rfl p, h1]

/-- The validity output's block at a last tile. -/
theorem out4_at (c : Dev nD) (t : Fin cfg0.N) (h1 : t.val % 11 = 10) (p : Fin 2048) :
    (outsAt0 m c t.val t.isLt).2.1 (ix2 p (0 : Fin 1)) = validK (labOf (argA m c) (gridRow t p)) := by
  have h0 : ¬ t.val % 11 = 0 := by omega
  rw [outsAt0_C m c t h0 h1]; dsimp only
  refine (congrFun (oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
  refine (pay4_apply (lblk m c t) p).trans ?_
  rw [lblk_apply m c t p]

end Cert.KernelIdeal.Invariant

end
-- ==== Proof.KernelValue.lean ====
/-
  The streamed program's result: the two output arrays hold each row's loss and validity flag, and the host tail
  divides the sum of the losses by the number of valid rows (at least one).
-/
import proofs.«412923_j54760833024747_1_alg».proof.Proof.Gen.KernelIdeal.Frame
import proofs.«412923_j54760833024747_1_alg».proof.Proof.Invariant
import proofs.«412923_j54760833024747_1_alg».proof.Proof.Blocks
import proofs.«412923_j54760833024747_1_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.KernelValue

open Cert.KernelIdeal Cert.KernelIdeal.Gen Cert.KernelIdeal.Blocks Cert.KernelIdeal.Invariant Cert.OimLoss
open Idealize.ShloMosaic Idealize.ShloMosaic.TcCoe Idealize.ShloMosaic.ValueIdx Idealize.SL.Sem

variable (m : (ℓ : Loc nD τ sig) → Buf (Elt Ideal) ℓ) (ρ : Dev nD → PrngReg)

/-- The loss of the row an index of the loss array names. -/
def lossArr (c : Dev nD) : S8192x1.Idx → EReal :=
  fun i => nllK (labOf (argA m c) (i 0)) (rowSt m c (i 0) 10)

/-- The validity flag of the row an index of the flag array names. -/
def validArr (c : Dev nD) : S8192x1.Idx → EReal :=
  fun i => validK (labOf (argA m c) (i 0))

/-- The block index of the two output windows: the row block along the rows, zero along the one column. -/
theorem out_index : ∀ t : Fin cfg0.N, (win0_3.index t (0 : Fin 2) = t.val / 11 ∧ win0_3.index t (1 : Fin 2) = 0)
    ∧ (win0_4.index t (0 : Fin 2) = t.val / 11 ∧ win0_4.index t (1 : Fin 2) = 0) :=
  (by decide +kernel : ∀ t : Fin grid0.N, _)

/-- What a last-tile point writes back of window 3 is its block of the whole-array function. -/
theorem flushed3_eq (c : Dev nD) (t : Fin cfg0.N) (hf : (cfg0.win 3).flush t = true) :
    (dats m 0 c).flushed 3 t = ((cfg0.win 3).blk t).view.read (Elt Ideal) (lossArr m c) := by
  have h1 : t.val % 11 = 10 := (flush0_3 t).mp hf
  show (cfg0.win 3).cut (grid0.coords t) ((dats m 0 c).after 3 t) = _
  rw [after0_3]
  funext j
  show (outsAt0 m c t.val t.isLt).1 j = lossArr m c (((cfg0.win 3).blk t).view.emb j)
  obtain ⟨p, q, rfl⟩ : ∃ (p : Fin 2048) (q : Fin 1), j = ix2 p q := ⟨j 0, j 1, eq_ix2 j⟩
  obtain rfl : q = 0 := Subsingleton.elim _ _
  rw [out3_at m c t h1 p]
  unfold lossArr
  have e : ((((cfg0.win 3).blk t).view.emb (ix2 p 0)) 0 : Fin 8192) = gridRow t p := by
    apply Fin.ext
    show win0_3.index t (0 : Fin 2) * 2048 + 1 * p.val = 2048 * (t.val / 11) + p.val
    rw [(out_index t).1.1]; omega
  rw [e]

/-- An index of the array is in point `t`'s block of window 3 iff each coordinate is in the block's range. -/
theorem mem_blk3 (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v7_0).slice (win0_3.rect t)).set ↔ _
  rw [View.set_slice_whole, Rect.mem_set_unit]
  exact Iff.rfl

/-- Row `r` is in the block written back at the last tile of row block `r / 2048`. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 44 := N_0
  have hlt : 11 * ((i 0).val / 2048) + 10 < cfg0.N := by omega
  refine ⟨⟨11 * ((i 0).val / 2048) + 10, hlt⟩, (flush0_3 _).mpr (by show (11 * ((i 0).val / 2048) + 10) % 11 = 10; omega), ?_⟩
  rw [mem_blk3]
  intro a
  obtain ⟨e0, e1⟩ := (out_index ⟨11 * ((i 0).val / 2048) + 10, hlt⟩).1
  match a with
  | ⟨0, _⟩ =>
    show win0_3.index _ (0 : Fin 2) * 2048 ≤ (i 0).val ∧ (i 0).val < win0_3.index _ (0 : Fin 2) * 2048 + 2048
    rw [e0]; dsimp only; omega
  | ⟨1, _⟩ =>
    show win0_3.index _ (1 : Fin 2) * 1 ≤ (i 1).val ∧ (i 1).val < win0_3.index _ (1 : Fin 2) * 1 + 1
    rw [e1]; omega

/-- The array of window 3 after the run is the whole-array function. -/
theorem final3 (c : Dev nD) : (dats m 0 c).arrAt 3 cfg0.N = lossArr m c :=
  (dats m 0 c).arrAt_eq_of_cover 3 (lossArr m c) (flushed3_eq m c) cover3

/-- What a last-tile point writes back of window 4 is its block of the whole-array function. -/
theorem flushed4_eq (c : Dev nD) (t : Fin cfg0.N) (hf : (cfg0.win 4).flush t = true) :
    (dats m 0 c).flushed 4 t = ((cfg0.win 4).blk t).view.read (Elt Ideal) (validArr m c) := by
  have h1 : t.val % 11 = 10 := (flush0_4 t).mp hf
  show (cfg0.win 4).cut (grid0.coords t) ((dats m 0 c).after 4 t) = _
  rw [after0_4]
  funext j
  show (outsAt0 m c t.val t.isLt).2.1 j = validArr m c (((cfg0.win 4).blk t).view.emb j)
  obtain ⟨p, q, rfl⟩ : ∃ (p : Fin 2048) (q : Fin 1), j = ix2 p q := ⟨j 0, j 1, eq_ix2 j⟩
  obtain rfl : q = 0 := Subsingleton.elim _ _
  rw [out4_at m c t h1 p]
  unfold validArr
  have e : ((((cfg0.win 4).blk t).view.emb (ix2 p 0)) 0 : Fin 8192) = gridRow t p := by
    apply Fin.ext
    show win0_4.index t (0 : Fin 2) * 2048 + 1 * p.val = 2048 * (t.val / 11) + p.val
    rw [(out_index t).2.1]; omega
  rw [e]

/-- An index of the array is in point `t`'s block of window 4 iff each coordinate is in the block's range. -/
theorem mem_blk4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v7_1).slice (win0_4.rect t)).set ↔ _
  rw [View.set_slice_whole, Rect.mem_set_unit]
  exact Iff.rfl

/-- Row `r` is in the block written back at the last tile of row block `r / 2048`. -/
theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 44 := N_0
  have hlt : 11 * ((i 0).val / 2048) + 10 < cfg0.N := by omega
  refine ⟨⟨11 * ((i 0).val / 2048) + 10, hlt⟩, (flush0_4 _).mpr (by show (11 * ((i 0).val / 2048) + 10) % 11 = 10; omega), ?_⟩
  rw [mem_blk4]
  intro a
  obtain ⟨e0, e1⟩ := (out_index ⟨11 * ((i 0).val / 2048) + 10, hlt⟩).2
  match a with
  | ⟨0, _⟩ =>
    show win0_4.index _ (0 : Fin 2) * 2048 ≤ (i 0).val ∧ (i 0).val < win0_4.index _ (0 : Fin 2) * 2048 + 2048
    rw [e0]; dsimp only; omega
  | ⟨1, _⟩ =>
    show win0_4.index _ (1 : Fin 2) * 1 ≤ (i 1).val ∧ (i 1).val < win0_4.index _ (1 : Fin 2) * 1 + 1
    rw [e1]; omega

/-- The array of window 4 after the run is the whole-array function. -/
theorem final4 (c : Dev nD) : (dats m 0 c).arrAt 4 cfg0.N = validArr m c :=
  (dats m 0 c).arrAt_eq_of_cover 4 (validArr m c) (flushed4_eq m c) cover4

/-- The loss output array after the run: row `r`'s loss. -/
theorem arr3 (c : Dev nD) (r : Fin 8192) :
    ((dats m 0 c).arrAt 3 cfg0.N : S8192x1.Idx → EReal) (ix2 r (0 : Fin 1))
      = nllK (labOf (argA m c) r) (rowSt m c r 10) := by
  exact congrFun (final3 m c) (ix2 r (0 : Fin 1))

/-- The validity output array after the run: row `r`'s flag. -/
theorem arr4 (c : Dev nD) (r : Fin 8192) :
    ((dats m 0 c).arrAt 4 cfg0.N : S8192x1.Idx → EReal) (ix2 r (0 : Fin 1)) = validK (labOf (argA m c) r) := by
  exact congrFun (final4 m c) (ix2 r (0 : Fin 1))

/-- The host tail: the sum of the losses over the count of valid rows, at least one. -/
theorem tail_value (c : Dev nD) :
    Pipeline.afterTail₀ cfgs (dats m) 0 (V0 m) [hostOps1] c main_v11
      = fun _ => lossK (argX m c) (argA m c) (argLut m c) (argCq m c) := by
  unfold Pipeline.afterTail₀
  show StableHlo.after hostOps1 _ (Proc.devRef .tc main_v11) = _
  after_results
  have e3 : Pipeline.withArrays (cfgs 0).spec c (V0 m c) (fun w => (dats m 0 c).arrAt w (cfgs 0).N)
      (Proc.tc.devRef main_v7_0) = lossArr m c :=
    (Pipeline.withArrays_arr spec0 launch0.win.arr_inj c _ _ 3).trans (final3 m c)
  have e4 : Pipeline.withArrays (cfgs 0).spec c (V0 m c) (fun w => (dats m 0 c).arrAt w (cfgs 0).N)
      (Proc.tc.devRef main_v7_1) = validArr m c :=
    (Pipeline.withArrays_arr spec0 launch0.win.arr_inj c _ _ 4).trans (final4 m c)
  rw [e3, e4]
  funext j
  show Ideal.div (Ideal.hostReduceAdd reducesTo_S8192x1_S_d0_1 (lossArr m c) (Ideal.ofBits .f32 0x00000000#32) j)
      (max (Ideal.hostReduceAdd reducesTo_S8192x1_S_d0_1 (validArr m c) (Ideal.ofBits .f32 0x00000000#32) j)
        (Ideal.ofBits .f32 0x3F800000#32)) = _
  rw [Ideal.hostReduceAdd_total _ (fun b => b.elim0), Ideal.hostReduceAdd_total _ (fun b => b.elim0),
    Ideal.ofBits_zero_f32, sum_idx2, sum_idx2]
  simp only [Fin.sum_univ_one]
  rfl

/-- Every weakly fair execution of the streamed program terminates with its result at the streamed loss of its
    arguments, the arguments unchanged. -/
theorem run_value : θ_run defs (onTc (τ := τ) (main (F := Ideal))) ⟨m, fun _ => 0, ρ⟩ (fun r => ∀ c : Dev nD,
      r.2.mem ((c.tc : Thread nD τ).loc main_v11) = (fun _ => lossK (argX m c) (argA m c) (argLut m c) (argCq m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun _ h c =>
    ⟨((h c).2 main_v11 (Pipeline.mem_restRefs_of main_v11 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefRun.lean ====
/- GENERATED by `bun proofs/412923_j54760833024747_1_alg/scratch/gen_refrun.mjs > proofs/412923_j54760833024747_1_alg/proof/Proof/RefRun.lean` (from $KIT/certs), which reads
   proof/Proof/RefRunDefs.lean (the 74 operations) and proof/Proof/RefStages.lean (the stages), and lays out: the operations cut into ten
   consecutive stretches, each restated over the bare references, and per stretch one lemma (which stages it is told, which it tells):
     A: operations 0–6; told arg0 arg1 arg2 arg3; tells v1 v3 v5
     B: operations 7–13; told v1 v3 v5; tells v1 v8 v10
     C: operations 14–21; told v1 v8 v10; tells v8 v10 v11
     D: operations 22–30; told v8 v10 v11; tells v10 v11 call1_v5 call1_v6
     E: operations 31–36; told v10 v11 call1_v5 call1_v6; tells v10 v11 v12
     G: operations 37–45; told v10 v11 v12; tells v10 v12 call2_v5
     H: operations 46–55; told v10 v12 call2_v5; tells v10 v12 call2_v5 call2_v12
     I: operations 56–59; told v10 v12 call2_v5 call2_v12; tells v10 v14
     J: operations 60–66; told v10 v14; tells v10 v16 v19
     K: operations 67–73; told v10 v16 v19; tells v22
   and, for every operation of an inlined function that takes a function (it is stated over typed references), the lemma typed_op<k>
   restating it over the bare references. The joining of the stretches (ops_split, result) and run are fixed text of the script. -/
/-
  The plain program's run: every weakly fair execution terminates with the result at the composition of its
  stages applied to the arguments, the arguments unchanged.

  The 74 operations are cut into ten consecutive stretches. A stretch's lemma says: from ANY contents that hold the
  stages of the buffers the stretch (or a later one) reads, the contents after the stretch hold the stages of the
  buffers later stretches read. Each is a fold over a short list, closed by unfolding the stages it writes; the
  stages handed over stay folded. The whole run is the ten lemmas in a row.
-/
import proofs.«412923_j54760833024747_1_alg».proof.Proof.RefRunDefs
import proofs.«412923_j54760833024747_1_alg».proof.Proof.RefStages
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 0 to 6 (they write c, v0, v1, v2, v3, v4, v5), over the bare references. -/
abbrev opsA : List (HloOp τ sig (Elt F)) :=
  [ nullary main_c (constantI S_ 32 1#32),
    unary main_c main_v0 (broadcastInDim S8192 ![] bcast_S_S8192 : (⟨S_, .i32⟩ : BufTy).Contents (Elt F) → (⟨S8192, .i32⟩ : BufTy).Contents (Elt F)),
    binary main_arg1 main_v0 main_v1 (subi : (⟨S8192, .i32⟩ : BufTy).Contents (Elt F) → (⟨S8192, .i32⟩ : BufTy).Contents (Elt F) → (⟨S8192, .i32⟩ : BufTy).Contents (Elt F)),
    unary main_arg2 main_v2 ((transpose S256x5532 [1, 0] · transposes_S5532x256_S256x5532_1_0) : (⟨S5532x256, .f32⟩ : BufTy).Contents (Elt F) → (⟨S256x5532, .f32⟩ : BufTy).Contents (Elt F)),
    binary main_arg0 main_v2 main_v3 ((fun l r => Host.dotGeneral dot_S8192x256_S256x5532_S8192x5532_1_0_0_1_n_n none l r) : (⟨S8192x256, .f32⟩ : BufTy).Contents (Elt F) → (⟨S256x5532, .f32⟩ : BufTy).Contents (Elt F) → (⟨S8192x5532, .f32⟩ : BufTy).Contents (Elt F)),
    unary main_arg3 main_v4 ((transpose S256x5000 [1, 0] · transposes_S5000x256_S256x5000_1_0) : (⟨S5000x256, .f32⟩ : BufTy).Contents (Elt F) → (⟨S256x5000, .f32⟩ : BufTy).Contents (Elt F)),
    binary main_arg0 main_v4 main_v5 ((fun l r => Host.dotGeneral dot_S8192x256_S256x5000_S8192x5000_1_0_0_1_n_n none l r) : (⟨S8192x256, .f32⟩ : BufTy).Contents (Elt F) → (⟨S256x5000, .f32⟩ : BufTy).Contents (Elt F) → (⟨S8192x5000, .f32⟩ : BufTy).Contents (Elt F)) ]

/-- From contents holding the stages of arg0, arg1, arg2, arg3, the stretch leaves the stages of v1, v3, v5. -/
theorem chunkA (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3) :
    after opsA W (Proc.devRef .tc main_v1) = val_main_v1 (F := F) x1
    ∧ after opsA W (Proc.devRef .tc main_v3) = val_main_v3 (F := F) x0 x2
    ∧ after opsA W (Proc.devRef .tc main_v5) = val_main_v5 (F := F) x0 x3 := by
  refine ⟨?_, ?_, ?_⟩
  · after_results_simp; rw [h_main_arg1]; rfl
  · after_results_simp; rw [h_main_arg0, h_main_arg2]; rfl
  · after_results_simp; rw [h_main_arg0, h_main_arg3]; rfl

/-- Operations 7 to 13 (they write v6, cst, v7, v8, c_0, v9, v10), over the bare references. -/
abbrev opsB : List (HloOp τ sig (Elt F)) :=
  [ binary main_v3 main_v5 main_v6 ((fun a b => concatenate S8192x10532 1 [⟨S8192x5532, a⟩, ⟨S8192x5000, b⟩] concatenates_S8192x5532_S8192x5000_S8192x10532_d1) : (⟨S8192x5532, .f32⟩ : BufTy).Contents (Elt F) → (⟨S8192x5000, .f32⟩ : BufTy).Contents (Elt F) → (⟨S8192x10532, .f32⟩ : BufTy).Contents (Elt F)),
    nullary main_cst (constant S_ .f32 0x41F00000#32),
    unary main_cst main_v7 (broadcastInDim S8192x10532 ![] bcast_S_S8192x10532 : (⟨S_, .f32⟩ : BufTy).Contents (Elt F) → (⟨S8192x10532, .f32⟩ : BufTy).Contents (Elt F)),
    binary main_v6 main_v7 main_v8 (mulf : (⟨S8192x10532, .f32⟩ : BufTy).Contents (Elt F) → (⟨S8192x10532, .f32⟩ : BufTy).Contents (Elt F) → (⟨S8192x10532, .f32⟩ : BufTy).Contents (Elt F)),
    nullary main_c_0 (constantI S_ 32 5554#32),
    unary main_c_0 main_v9 (broadcastInDim S8192 ![] bcast_S_S8192 : (⟨S_, .i32⟩ : BufTy).Contents (Elt F) → (⟨S8192, .i32⟩ : BufTy).Contents (Elt F)),
    binary main_v1 main_v9 main_v10 (cmpi .ne : (⟨S8192, .i32⟩ : BufTy).Contents (Elt F) → (⟨S8192, .i32⟩ : BufTy).Contents (Elt F) → (⟨S8192, .i1⟩ : BufTy).Contents (Elt F)) ]

/-- From contents holding the stages of v1, v3, v5, the stretch leaves the stages of v1, v8, v10. -/
theorem chunkB (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v1 : W (Proc.devRef .tc main_v1) = val_main_v1 (F := F) x1)
    (h_main_v3 : W (Proc.devRef .tc main_v3) = val_main_v3 (F := F) x0 x2)
    (h_main_v5 : W (Proc.devRef .tc main_v5) = val_main_v5 (F := F) x0 x3) :
    after opsB W (Proc.devRef .tc main_v1) = val_main_v1 (F := F) x1
    ∧ after opsB W (Proc.devRef .tc main_v8) = val_main_v8 (F := F) x0 x2 x3
    ∧ after opsB W (Proc.devRef .tc main_v10) = val_main_v10 (F := F) x1 := by
  refine ⟨?_, ?_, ?_⟩
  · after_results_simp; exact h_main_v1
  · after_results_simp; rw [h_main_v3, h_main_v5]; rfl
  · after_results_simp; rw [h_main_v1]; rfl

/-- Operations 14 to 21 (they write c_1, c_2, call0_v0, call0_v1, call0_v2, call0_v3, call0_v4, v11), over the bare references. -/
abbrev opsC : List (HloOp τ sig (Elt F)) :=
  [ nullary main_c_1 (constantI S_ 32 0#32),
    nullary main_c_2 (constantI S_ 32 10531#32),
    unary main_c_1 main_call0_v0 (id : (⟨S_, .i32⟩ : BufTy).Contents (Elt F) → (⟨S_, .i32⟩ : BufTy).Contents (Elt F)),
    unary main_call0_v0 main_call0_v1 ((broadcastInDim S8192 ![] bcast_S_S8192) : (⟨S_, .i32⟩ : BufTy).Contents (Elt F) → (⟨S8192, .i32⟩ : BufTy).Contents (Elt F)),
    binary main_call0_v1 main_v1 main_call0_v2 (maxsi : (⟨S8192, .i32⟩ : BufTy).Contents (Elt F) → (⟨S8192, .i32⟩ : BufTy).Contents (Elt F) → (⟨S8192, .i32⟩ : BufTy).Contents (Elt F)),
    unary main_c_2 main_call0_v3 (id : (⟨S_, .i32⟩ : BufTy).Contents (Elt F) → (⟨S_, .i32⟩ : BufTy).Contents (Elt F)),
    unary main_call0_v3 main_call0_v4 ((broadcastInDim S8192 ![] bcast_S_S8192) : (⟨S_, .i32⟩ : BufTy).Contents (Elt F) → (⟨S8192, .i32⟩ : BufTy).Contents (Elt F)),
    binary main_call0_v4 main_call0_v2 main_v11 (minsi : (⟨S8192, .i32⟩ : BufTy).Contents (Elt F) → (⟨S8192, .i32⟩ : BufTy).Contents (Elt F) → (⟨S8192, .i32⟩ : BufTy).Contents (Elt F)) ]

/-- From contents holding the stages of v1, v8, v10, the stretch leaves the stages of v8, v10, v11. -/
theorem chunkC (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v1 : W (Proc.devRef .tc main_v1) = val_main_v1 (F := F) x1)
    (h_main_v8 : W (Proc.devRef .tc main_v8) = val_main_v8 (F := F) x0 x2 x3)
    (h_main_v10 : W (Proc.devRef .tc main_v10) = val_main_v10 (F := F) x1) :
    after opsC W (Proc.devRef .tc main_v8) = val_main_v8 (F := F) x0 x2 x3
    ∧ after opsC W (Proc.devRef .tc main_v10) = val_main_v10 (F := F) x1
    ∧ after opsC W (Proc.devRef .tc main_v11) = val_main_v11 (F := F) x1 := by
  refine ⟨?_, ?_, ?_⟩
  · after_results_simp; exact h_main_v8
  · after_results_simp; exact h_main_v10
  · after_results_simp; rw [h_main_v1]; rfl

/-- Operations 22 to 30 (they write call1_cst, call1_v0, call1_cst_0, call1_v1, call1_v2, call1_v3, call1_v4, call1_v5, call1_v6), over the bare references. -/
abbrev opsD : List (HloOp τ sig (Elt F)) :=
  [ nullary main_call1_cst (constant S_ .f32 0xFF800000#32),
    binary main_v8 main_call1_cst main_call1_v0 ((fun x v => Host.reduce FloatOps.maximumf x v reducesTo_S8192x10532_S8192_d1 h_S_) : (⟨S8192x10532, .f32⟩ : BufTy).Contents (Elt F) → (⟨S_, .f32⟩ : BufTy).Contents (Elt F) → (⟨S8192, .f32⟩ : BufTy).Contents (Elt F)),
    nullary main_call1_cst_0 (constant S_ .f32 0xFF800000#32),
    unary main_call1_cst_0 main_call1_v1 ((broadcastInDim S8192 ![] bcast_S_S8192) : (⟨S_, .f32⟩ : BufTy).Contents (Elt F) → (⟨S8192, .f32⟩ : BufTy).Contents (Elt F)),
    binary main_call1_v1 main_call1_v0 main_call1_v2 (maximumf : (⟨S8192, .f32⟩ : BufTy).Contents (Elt F) → (⟨S8192, .f32⟩ : BufTy).Contents (Elt F) → (⟨S8192, .f32⟩ : BufTy).Contents (Elt F)),
    unary main_call1_v2 main_call1_v3 ((broadcastInDim S8192x1 ![0] bcast_S8192_S8192x1_0) : (⟨S8192, .f32⟩ : BufTy).Contents (Elt F) → (⟨S8192x1, .f32⟩ : BufTy).Contents (Elt F)),
    unary main_call1_v3 main_call1_v4 ((broadcastInDim S8192x10532 ![0, 1] bcast_S8192x1_S8192x10532_0_1) : (⟨S8192x1, .f32⟩ : BufTy).Contents (Elt F) → (⟨S8192x10532, .f32⟩ : BufTy).Contents (Elt F)),
    binary main_v8 main_call1_v4 main_call1_v5 (subf : (⟨S8192x10532, .f32⟩ : BufTy).Contents (Elt F) → (⟨S8192x10532, .f32⟩ : BufTy).Contents (Elt F) → (⟨S8192x10532, .f32⟩ : BufTy).Contents (Elt F)),
    unary main_call1_v5 main_call1_v6 (Host.exp : (⟨S8192x10532, .f32⟩ : BufTy).Contents (Elt F) → (⟨S8192x10532, .f32⟩ : BufTy).Contents (Elt F)) ]

/-- From contents holding the stages of v8, v10, v11, the stretch leaves the stages of v10, v11, call1_v5, call1_v6. -/
theorem chunkD (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v8 : W (Proc.devRef .tc main_v8) = val_main_v8 (F := F) x0 x2 x3)
    (h_main_v10 : W (Proc.devRef .tc main_v10) = val_main_v10 (F := F) x1)
    (h_main_v11 : W (Proc.devRef .tc main_v11) = val_main_v11 (F := F) x1) :
    after opsD W (Proc.devRef .tc main_v10) = val_main_v10 (F := F) x1
    ∧ after opsD W (Proc.devRef .tc main_v11) = val_main_v11 (F := F) x1
    ∧ after opsD W (Proc.devRef .tc main_call1_v5) = val_main_call1_v5 (F := F) x0 x2 x3
    ∧ after opsD W (Proc.devRef .tc main_call1_v6) = val_main_call1_v6 (F := F) x0 x2 x3 := by
  refine ⟨?_, ?_, ?_, ?_⟩
  · after_results_simp; exact h_main_v10
  · after_results_simp; exact h_main_v11
  · after_results_simp; rw [h_main_v8]; rfl
  · after_results_simp; rw [h_main_v8]; rfl

/-- Operations 31 to 36 (they write call1_cst_1, call1_v7, call1_v8, call1_v9, call1_v10, v12), over the bare references. -/
abbrev opsE : List (HloOp τ sig (Elt F)) :=
  [ nullary main_call1_cst_1 (constant S_ .f32 0x00000000#32),
    binary main_call1_v6 main_call1_cst_1 main_call1_v7 ((fun x v => Host.reduceAdd x v reducesTo_S8192x10532_S8192_d1 h_S_) : (⟨S8192x10532, .f32⟩ : BufTy).Contents (Elt F) → (⟨S_, .f32⟩ : BufTy).Contents (Elt F) → (⟨S8192, .f32⟩ : BufTy).Contents (Elt F)),
    unary main_call1_v7 main_call1_v8 ((broadcastInDim S8192x1 ![0] bcast_S8192_S8192x1_0) : (⟨S8192, .f32⟩ : BufTy).Contents (Elt F) → (⟨S8192x1, .f32⟩ : BufTy).Contents (Elt F)),
    unary main_call1_v8 main_call1_v9 (Host.log : (⟨S8192x1, .f32⟩ : BufTy).Contents (Elt F) → (⟨S8192x1, .f32⟩ : BufTy).Contents (Elt F)),
    unary main_call1_v9 main_call1_v10 ((broadcastInDim S8192x10532 ![0, 1] bcast_S8192x1_S8192x10532_0_1) : (⟨S8192x1, .f32⟩ : BufTy).Contents (Elt F) → (⟨S8192x10532, .f32⟩ : BufTy).Contents (Elt F)),
    binary main_call1_v5 main_call1_v10 main_v12 (subf : (⟨S8192x10532, .f32⟩ : BufTy).Contents (Elt F) → (⟨S8192x10532, .f32⟩ : BufTy).Contents (Elt F) → (⟨S8192x10532, .f32⟩ : BufTy).Contents (Elt F)) ]

/-- From contents holding the stages of v10, v11, call1_v5, call1_v6, the stretch leaves the stages of v10, v11, v12. -/
theorem chunkE (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v11 : W (Proc.devRef .tc main_v11) = val_main_v11 (F := F) x1)
    (h_main_call1_v5 : W (Proc.devRef .tc main_call1_v5) = val_main_call1_v5 (F := F) x0 x2 x3)
    (h_main_call1_v6 : W (Proc.devRef .tc main_call1_v6) = val_main_call1_v6 (F := F) x0 x2 x3) :
    after opsE W (Proc.devRef .tc main_v10) = val_main_v10 (F := F) x1
    ∧ after opsE W (Proc.devRef .tc main_v11) = val_main_v11 (F := F) x1
    ∧ after opsE W (Proc.devRef .tc main_v12) = val_main_v12 (F := F) x0 x2 x3 := by
  refine ⟨?_, ?_, ?_⟩
  · after_results_simp; exact h_main_v10
  · after_results_simp; exact h_main_v11
  · after_results_simp; rw [h_main_call1_v5, h_main_call1_v6]; rfl

/-- Operations 37 to 45 (they write v13, call2_c, call2_v0, call2_v1, call2_c_0, call2_v2, call2_v3, call2_v4, call2_v5), over the bare references. -/
abbrev opsG : List (HloOp τ sig (Elt F)) :=
  [ unary main_v11 main_v13 (broadcastInDim S8192x1 ![0] bcast_S8192_S8192x1_0 : (⟨S8192, .i32⟩ : BufTy).Contents (Elt F) → (⟨S8192x1, .i32⟩ : BufTy).Contents (Elt F)),
    nullary main_call2_c (constantI S_ 32 0#32),
    unary main_call2_c main_call2_v0 ((broadcastInDim S8192x1 ![] bcast_S_S8192x1) : (⟨S_, .i32⟩ : BufTy).Contents (Elt F) → (⟨S8192x1, .i32⟩ : BufTy).Contents (Elt F)),
    binary main_v13 main_call2_v0 main_call2_v1 ((cmpi .slt) : (⟨S8192x1, .i32⟩ : BufTy).Contents (Elt F) → (⟨S8192x1, .i32⟩ : BufTy).Contents (Elt F) → (⟨S8192x1, .i1⟩ : BufTy).Contents (Elt F)),
    nullary main_call2_c_0 (constantI S_ 32 10532#32),
    unary main_call2_c_0 main_call2_v2 ((broadcastInDim S8192x1 ![] bcast_S_S8192x1) : (⟨S_, .i32⟩ : BufTy).Contents (Elt F) → (⟨S8192x1, .i32⟩ : BufTy).Contents (Elt F)),
    binary main_v13 main_call2_v2 main_call2_v3 (addi : (⟨S8192x1, .i32⟩ : BufTy).Contents (Elt F) → (⟨S8192x1, .i32⟩ : BufTy).Contents (Elt F) → (⟨S8192x1, .i32⟩ : BufTy).Contents (Elt F)),
    ternary main_call2_v1 main_call2_v3 main_v13 main_call2_v4 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    reshape main_call2_v4 main_call2_v5 rfl shapeCasts_S8192x1_S8192x1x1 ]

/-- From contents holding the stages of v10, v11, v12, the stretch leaves the stages of v10, v12, call2_v5. -/
theorem chunkG (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v11 : W (Proc.devRef .tc main_v11) = val_main_v11 (F := F) x1)
    (h_main_v12 : W (Proc.devRef .tc main_v12) = val_main_v12 (F := F) x0 x2 x3) :
    after opsG W (Proc.devRef .tc main_v10) = val_main_v10 (F := F) x1
    ∧ after opsG W (Proc.devRef .tc main_v12) = val_main_v12 (F := F) x0 x2 x3
    ∧ after opsG W (Proc.devRef .tc main_call2_v5) = val_main_call2_v5 (F := F) x1 := by
  refine ⟨?_, ?_, ?_⟩
  · after_results_simp; exact h_main_v10
  · after_results_simp; exact h_main_v12
  · after_results_simp; rw [h_main_v11]; rfl

/-- Operations 46 to 55 (they write call2_c_1, call2_c_2, call2_v6, call2_v7, call2_v8, call2_v9, call2_v10, call2_v11, call2_c_3, call2_v12), over the bare references. -/
abbrev opsH : List (HloOp τ sig (Elt F)) :=
  [ nullary main_call2_c_1 (constantI S1 32 10531#32),
    nullary main_call2_c_2 (constantI S_ 32 0#32),
    unary main_call2_c_2 main_call2_v6 ((broadcastInDim S8192x1x1 ![] bcast_S_S8192x1x1) : (⟨S_, .i32⟩ : BufTy).Contents (Elt F) → (⟨S8192x1x1, .i32⟩ : BufTy).Contents (Elt F)),
    binary main_call2_v5 main_call2_v6 main_call2_v7 ((cmpi .sge) : (⟨S8192x1x1, .i32⟩ : BufTy).Contents (Elt F) → (⟨S8192x1x1, .i32⟩ : BufTy).Contents (Elt F) → (⟨S8192x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S8192x1x1 ![0, 1, 2] bcast_S1x1x1_S8192x1x1_0_1_2) : (⟨S1x1x1, .i32⟩ : BufTy).Contents (Elt F) → (⟨S8192x1x1, .i32⟩ : BufTy).Contents (Elt F)),
    binary main_call2_v5 main_call2_v9 main_call2_v10 ((cmpi .sle) : (⟨S8192x1x1, .i32⟩ : BufTy).Contents (Elt F) → (⟨S8192x1x1, .i32⟩ : BufTy).Contents (Elt F) → (⟨S8192x1x1, .i1⟩ : BufTy).Contents (Elt F)),
    binary main_call2_v7 main_call2_v10 main_call2_v11 (andi : (⟨S8192x1x1, .i1⟩ : BufTy).Contents (Elt F) → (⟨S8192x1x1, .i1⟩ : BufTy).Contents (Elt F) → (⟨S8192x1x1, .i1⟩ : BufTy).Contents (Elt F)),
    nullary main_call2_c_3 (constantI S_ 1 1#1),
    binary main_call2_v11 main_call2_c_3 main_call2_v12 ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) ]

/-- From contents holding the stages of v10, v12, call2_v5, the stretch leaves the stages of v10, v12, call2_v5, call2_v12. -/
theorem chunkH (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v12 : W (Proc.devRef .tc main_v12) = val_main_v12 (F := F) x0 x2 x3)
    (h_main_call2_v5 : W (Proc.devRef .tc main_call2_v5) = val_main_call2_v5 (F := F) x1) :
    after opsH W (Proc.devRef .tc main_v10) = val_main_v10 (F := F) x1
    ∧ after opsH W (Proc.devRef .tc main_v12) = val_main_v12 (F := F) x0 x2 x3
    ∧ after opsH W (Proc.devRef .tc main_call2_v5) = val_main_call2_v5 (F := F) x1
    ∧ after opsH W (Proc.devRef .tc main_call2_v12) = val_main_call2_v12 (F := F) x1 := by
  refine ⟨?_, ?_, ?_, ?_⟩
  · after_results_simp; exact h_main_v10
  · after_results_simp; exact h_main_v12
  · after_results_simp; exact h_main_call2_v5
  · after_results_simp; rw [h_main_call2_v5]; rfl

/-- Operations 56 to 59 (they write call2_v13, call2_cst, call2_v14, v14), over the bare references. -/
abbrev opsI : List (HloOp τ sig (Elt F)) :=
  [ binary main_v12 main_call2_v5 main_call2_v13 ((fun x i => Host.gather gather_S8192x10532_S8192x1x1_S8192x1_n_1_0_0_1_2_11 x i) : (⟨S8192x10532, .f32⟩ : BufTy).Contents (Elt F) → (⟨S8192x1x1, .i32⟩ : BufTy).Contents (Elt F) → (⟨S8192x1, .f32⟩ : BufTy).Contents (Elt F)),
    nullary main_call2_cst (constant S_ .f32 0x7FC00000#32),
    unary main_call2_cst main_call2_v14 ((broadcastInDim S8192x1 ![] bcast_S_S8192x1) : (⟨S_, .f32⟩ : BufTy).Contents (Elt F) → (⟨S8192x1, .f32⟩ : BufTy).Contents (Elt F)),
    ternary main_call2_v12 main_call2_v13 main_call2_v14 main_v14 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) ]

/-- From contents holding the stages of v10, v12, call2_v5, call2_v12, the stretch leaves the stages of v10, v14. -/
theorem chunkI (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v12 : W (Proc.devRef .tc main_v12) = val_main_v12 (F := F) x0 x2 x3)
    (h_main_call2_v5 : W (Proc.devRef .tc main_call2_v5) = val_main_call2_v5 (F := F) x1)
    (h_main_call2_v12 : W (Proc.devRef .tc main_call2_v12) = val_main_call2_v12 (F := F) x1) :
    after opsI W (Proc.devRef .tc main_v10) = val_main_v10 (F := F) x1
    ∧ after opsI W (Proc.devRef .tc main_v14) = val_main_v14 (F := F) x0 x1 x2 x3 := by
  refine ⟨?_, ?_⟩
  · after_results_simp; exact h_main_v10
  · after_results_simp; rw [h_main_call2_v12, h_main_v12, h_main_call2_v5]; rfl

/-- Operations 60 to 66 (they write v15, v16, v17, cst_3, v18, cst_4, v19), over the bare references. -/
abbrev opsJ : List (HloOp τ sig (Elt F)) :=
  [ reshape main_v14 main_v15 rfl shapeCasts_S8192x1_S8192,
    unary main_v15 main_v16 (Host.negf : (⟨S8192, .f32⟩ : BufTy).Contents (Elt F) → (⟨S8192, .f32⟩ : BufTy).Contents (Elt F)),
    unary main_v10 main_v17 (uitofp .f32 : (⟨S8192, .i1⟩ : BufTy).Contents (Elt F) → (⟨S8192, .f32⟩ : BufTy).Contents (Elt F)),
    nullary main_cst_3 (constant S_ .f32 0x00000000#32),
    binary main_v17 main_cst_3 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x3F800000#32),
    binary main_v18 main_cst_4 main_v19 (maximumf : (⟨S_, .f32⟩ : BufTy).Contents (Elt F) → (⟨S_, .f32⟩ : BufTy).Contents (Elt F) → (⟨S_, .f32⟩ : BufTy).Contents (Elt F)) ]

/-- From contents holding the stages of v10, v14, the stretch leaves the stages of v10, v16, v19. -/
theorem chunkJ (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v14 : W (Proc.devRef .tc main_v14) = val_main_v14 (F := F) x0 x1 x2 x3) :
    after opsJ W (Proc.devRef .tc main_v10) = val_main_v10 (F := F) x1
    ∧ after opsJ W (Proc.devRef .tc main_v16) = val_main_v16 (F := F) x0 x1 x2 x3
    ∧ after opsJ W (Proc.devRef .tc main_v19) = val_main_v19 (F := F) x1 := by
  refine ⟨?_, ?_, ?_⟩
  · after_results_simp; exact h_main_v10
  · after_results_simp; rw [h_main_v14]; rfl
  · after_results_simp; rw [h_main_v10]; rfl

/-- Operations 67 to 73 (they write cst_5, call3_v0, call3_v1, v20, cst_6, v21, v22), over the bare references. -/
abbrev opsK : List (HloOp τ sig (Elt F)) :=
  [ nullary main_cst_5 (constant S_ .f32 0x00000000#32),
    unary main_cst_5 main_call3_v0 (id : (⟨S_, .f32⟩ : BufTy).Contents (Elt F) → (⟨S_, .f32⟩ : BufTy).Contents (Elt F)),
    unary main_call3_v0 main_call3_v1 ((broadcastInDim S8192 ![] bcast_S_S8192) : (⟨S_, .f32⟩ : BufTy).Contents (Elt F) → (⟨S8192, .f32⟩ : BufTy).Contents (Elt F)),
    ternary main_v10 main_v16 main_call3_v1 main_v20 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_cst_6 (constant S_ .f32 0x00000000#32),
    binary main_v20 main_cst_6 main_v21 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v21 main_v19 main_v22 (Host.divf : (⟨S_, .f32⟩ : BufTy).Contents (Elt F) → (⟨S_, .f32⟩ : BufTy).Contents (Elt F) → (⟨S_, .f32⟩ : BufTy).Contents (Elt F)) ]

/-- From contents holding the stages of v10, v16, v19, the stretch leaves the stages of v22. -/
theorem chunkK (W : Valuation τ sig (Elt F))
    (x0 : (⟨S8192x256, .f32⟩ : BufTy).Contents (Elt F))
    (x1 : (⟨S8192, .i32⟩ : BufTy).Contents (Elt F))
    (x2 : (⟨S5532x256, .f32⟩ : BufTy).Contents (Elt F))
    (x3 : (⟨S5000x256, .f32⟩ : BufTy).Contents (Elt F))
    (h_main_v10 : W (Proc.devRef .tc main_v10) = val_main_v10 (F := F) x1)
    (h_main_v16 : W (Proc.devRef .tc main_v16) = val_main_v16 (F := F) x0 x1 x2 x3)
    (h_main_v19 : W (Proc.devRef .tc main_v19) = val_main_v19 (F := F) x1) :
    after opsK W (Proc.devRef .tc main_v22) = val_main_v22 (F := F) x0 x1 x2 x3 := by
  after_results_simp; rw [h_main_v10, h_main_v16, h_main_v19]; rfl

/-- Operation 16 over typed references is the same operation over the bare references, whatever its function. -/
theorem typed_op16 (f : (⟨S_, .i32⟩ : BufTy).Contents (Elt F) → (⟨S_, .i32⟩ : BufTy).Contents (Elt F)) :
    (TRef.unary (TRef.of (T := ⟨S_, .i32⟩) main_c_1) (TRef.of (T := ⟨S_, .i32⟩) main_call0_v0) f : HloOp τ sig (Elt F))
      = unary main_c_1 main_call0_v0 f := rfl

/-- Operation 17 over typed references is the same operation over the bare references, whatever its function. -/
theorem typed_op17 (f : (⟨S_, .i32⟩ : BufTy).Contents (Elt F) → (⟨S8192, .i32⟩ : BufTy).Contents (Elt F)) :
    (TRef.unary (TRef.of (T := ⟨S_, .i32⟩) main_call0_v0) (TRef.of (T := ⟨S8192, .i32⟩) main_call0_v1) f : HloOp τ sig (Elt F))
      = unary main_call0_v0 main_call0_v1 f := rfl

/-- Operation 18 over typed references is the same operation over the bare references, whatever its function. -/
theorem typed_op18 (f : (⟨S8192, .i32⟩ : BufTy).Contents (Elt F) → (⟨S8192, .i32⟩ : BufTy).Contents (Elt F) → (⟨S8192, .i32⟩ : BufTy).Contents (Elt F)) :
    (TRef.binary (TRef.of (T := ⟨S8192, .i32⟩) main_call0_v1) (TRef.of (T := ⟨S8192, .i32⟩) main_v1) (TRef.of (T := ⟨S8192, .i32⟩) main_call0_v2) f : HloOp τ sig (Elt F))
      = binary main_call0_v1 main_v1 main_call0_v2 f := rfl

/-- Operation 19 over typed references is the same operation over the bare references, whatever its function. -/
theorem typed_op19 (f : (⟨S_, .i32⟩ : BufTy).Contents (Elt F) → (⟨S_, .i32⟩ : BufTy).Contents (Elt F)) :
    (TRef.unary (TRef.of (T := ⟨S_, .i32⟩) main_c_2) (TRef.of (T := ⟨S_, .i32⟩) main_call0_v3) f : HloOp τ sig (Elt F))
      = unary main_c_2 main_call0_v3 f := rfl

/-- Operation 20 over typed references is the same operation over the bare references, whatever its function. -/
theorem typed_op20 (f : (⟨S_, .i32⟩ : BufTy).Contents (Elt F) → (⟨S8192, .i32⟩ : BufTy).Contents (Elt F)) :
    (TRef.unary (TRef.of (T := ⟨S_, .i32⟩) main_call0_v3) (TRef.of (T := ⟨S8192, .i32⟩) main_call0_v4) f : HloOp τ sig (Elt F))
      = unary main_call0_v3 main_call0_v4 f := rfl

/-- Operation 21 over typed references is the same operation over the bare references, whatever its function. -/
theorem typed_op21 (f : (⟨S8192, .i32⟩ : BufTy).Contents (Elt F) → (⟨S8192, .i32⟩ : BufTy).Contents (Elt F) → (⟨S8192, .i32⟩ : BufTy).Contents (Elt F)) :
    (TRef.binary (TRef.of (T := ⟨S8192, .i32⟩) main_call0_v4) (TRef.of (T := ⟨S8192, .i32⟩) main_call0_v2) (TRef.of (T := ⟨S8192, .i32⟩) main_v11) f : HloOp τ sig (Elt F))
      = binary main_call0_v4 main_call0_v2 main_v11 f := rfl

/-- Operation 23 over typed references is the same operation over the bare references, whatever its function. -/
theorem typed_op23 (f : (⟨S8192x10532, .f32⟩ : BufTy).Contents (Elt F) → (⟨S_, .f32⟩ : BufTy).Contents (Elt F) → (⟨S8192, .f32⟩ : BufTy).Contents (Elt F)) :
    (TRef.binary (TRef.of (T := ⟨S8192x10532, .f32⟩) main_v8) (TRef.of (T := ⟨S_, .f32⟩) main_call1_cst) (TRef.of (T := ⟨S8192, .f32⟩) main_call1_v0) f : HloOp τ sig (Elt F))
      = binary main_v8 main_call1_cst main_call1_v0 f := rfl

/-- Operation 25 over typed references is the same operation over the bare references, whatever its function. -/
theorem typed_op25 (f : (⟨S_, .f32⟩ : BufTy).Contents (Elt F) → (⟨S8192, .f32⟩ : BufTy).Contents (Elt F)) :
    (TRef.unary (TRef.of (T := ⟨S_, .f32⟩) main_call1_cst_0) (TRef.of (T := ⟨S8192, .f32⟩) main_call1_v1) f : HloOp τ sig (Elt F))
      = unary main_call1_cst_0 main_call1_v1 f := rfl

/-- Operation 26 over typed references is the same operation over the bare references, whatever its function. -/
theorem typed_op26 (f : (⟨S8192, .f32⟩ : BufTy).Contents (Elt F) → (⟨S8192, .f32⟩ : BufTy).Contents (Elt F) → (⟨S8192, .f32⟩ : BufTy).Contents (Elt F)) :
    (TRef.binary (TRef.of (T := ⟨S8192, .f32⟩) main_call1_v1) (TRef.of (T := ⟨S8192, .f32⟩) main_call1_v0) (TRef.of (T := ⟨S8192, .f32⟩) main_call1_v2) f : HloOp τ sig (Elt F))
      = binary main_call1_v1 main_call1_v0 main_call1_v2 f := rfl

/-- Operation 27 over typed references is the same operation over the bare references, whatever its function. -/
theorem typed_op27 (f : (⟨S8192, .f32⟩ : BufTy).Contents (Elt F) → (⟨S8192x1, .f32⟩ : BufTy).Contents (Elt F)) :
    (TRef.unary (TRef.of (T := ⟨S8192, .f32⟩) main_call1_v2) (TRef.of (T := ⟨S8192x1, .f32⟩) main_call1_v3) f : HloOp τ sig (Elt F))
      = unary main_call1_v2 main_call1_v3 f := rfl

/-- Operation 28 over typed references is the same operation over the bare references, whatever its function. -/
theorem typed_op28 (f : (⟨S8192x1, .f32⟩ : BufTy).Contents (Elt F) → (⟨S8192x10532, .f32⟩ : BufTy).Contents (Elt F)) :
    (TRef.unary (TRef.of (T := ⟨S8192x1, .f32⟩) main_call1_v3) (TRef.of (T := ⟨S8192x10532, .f32⟩) main_call1_v4) f : HloOp τ sig (Elt F))
      = unary main_call1_v3 main_call1_v4 f := rfl

/-- Operation 29 over typed references is the same operation over the bare references, whatever its function. -/
theorem typed_op29 (f : (⟨S8192x10532, .f32⟩ : BufTy).Contents (Elt F) → (⟨S8192x10532, .f32⟩ : BufTy).Contents (Elt F) → (⟨S8192x10532, .f32⟩ : BufTy).Contents (Elt F)) :
    (TRef.binary (TRef.of (T := ⟨S8192x10532, .f32⟩) main_v8) (TRef.of (T := ⟨S8192x10532, .f32⟩) main_call1_v4) (TRef.of (T := ⟨S8192x10532, .f32⟩) main_call1_v5) f : HloOp τ sig (Elt F))
      = binary main_v8 main_call1_v4 main_call1_v5 f := rfl

/-- Operation 30 over typed references is the same operation over the bare references, whatever its function. -/
theorem typed_op30 (f : (⟨S8192x10532, .f32⟩ : BufTy).Contents (Elt F) → (⟨S8192x10532, .f32⟩ : BufTy).Contents (Elt F)) :
    (TRef.unary (TRef.of (T := ⟨S8192x10532, .f32⟩) main_call1_v5) (TRef.of (T := ⟨S8192x10532, .f32⟩) main_call1_v6) f : HloOp τ sig (Elt F))
      = unary main_call1_v5 main_call1_v6 f := rfl

/-- Operation 32 over typed references is the same operation over the bare references, whatever its function. -/
theorem typed_op32 (f : (⟨S8192x10532, .f32⟩ : BufTy).Contents (Elt F) → (⟨S_, .f32⟩ : BufTy).Contents (Elt F) → (⟨S8192, .f32⟩ : BufTy).Contents (Elt F)) :
    (TRef.binary (TRef.of (T := ⟨S8192x10532, .f32⟩) main_call1_v6) (TRef.of (T := ⟨S_, .f32⟩) main_call1_cst_1) (TRef.of (T := ⟨S8192, .f32⟩) main_call1_v7) f : HloOp τ sig (Elt F))
      = binary main_call1_v6 main_call1_cst_1 main_call1_v7 f := rfl

/-- Operation 33 over typed references is the same operation over the bare references, whatever its function. -/
theorem typed_op33 (f : (⟨S8192, .f32⟩ : BufTy).Contents (Elt F) → (⟨S8192x1, .f32⟩ : BufTy).Contents (Elt F)) :
    (TRef.unary (TRef.of (T := ⟨S8192, .f32⟩) main_call1_v7) (TRef.of (T := ⟨S8192x1, .f32⟩) main_call1_v8) f : HloOp τ sig (Elt F))
      = unary main_call1_v7 main_call1_v8 f := rfl

/-- Operation 34 over typed references is the same operation over the bare references, whatever its function. -/
theorem typed_op34 (f : (⟨S8192x1, .f32⟩ : BufTy).Contents (Elt F) → (⟨S8192x1, .f32⟩ : BufTy).Contents (Elt F)) :
    (TRef.unary (TRef.of (T := ⟨S8192x1, .f32⟩) main_call1_v8) (TRef.of (T := ⟨S8192x1, .f32⟩) main_call1_v9) f : HloOp τ sig (Elt F))
      = unary main_call1_v8 main_call1_v9 f := rfl

/-- Operation 35 over typed references is the same operation over the bare references, whatever its function. -/
theorem typed_op35 (f : (⟨S8192x1, .f32⟩ : BufTy).Contents (Elt F) → (⟨S8192x10532, .f32⟩ : BufTy).Contents (Elt F)) :
    (TRef.unary (TRef.of (T := ⟨S8192x1, .f32⟩) main_call1_v9) (TRef.of (T := ⟨S8192x10532, .f32⟩) main_call1_v10) f : HloOp τ sig (Elt F))
      = unary main_call1_v9 main_call1_v10 f := rfl

/-- Operation 36 over typed references is the same operation over the bare references, whatever its function. -/
theorem typed_op36 (f : (⟨S8192x10532, .f32⟩ : BufTy).Contents (Elt F) → (⟨S8192x10532, .f32⟩ : BufTy).Contents (Elt F) → (⟨S8192x10532, .f32⟩ : BufTy).Contents (Elt F)) :
    (TRef.binary (TRef.of (T := ⟨S8192x10532, .f32⟩) main_call1_v5) (TRef.of (T := ⟨S8192x10532, .f32⟩) main_call1_v10) (TRef.of (T := ⟨S8192x10532, .f32⟩) main_v12) f : HloOp τ sig (Elt F))
      = binary main_call1_v5 main_call1_v10 main_v12 f := rfl

/-- Operation 39 over typed references is the same operation over the bare references, whatever its function. -/
theorem typed_op39 (f : (⟨S_, .i32⟩ : BufTy).Contents (Elt F) → (⟨S8192x1, .i32⟩ : BufTy).Contents (Elt F)) :
    (TRef.unary (TRef.of (T := ⟨S_, .i32⟩) main_call2_c) (TRef.of (T := ⟨S8192x1, .i32⟩) main_call2_v0) f : HloOp τ sig (Elt F))
      = unary main_call2_c main_call2_v0 f := rfl

/-- Operation 40 over typed references is the same operation over the bare references, whatever its function. -/
theorem typed_op40 (f : (⟨S8192x1, .i32⟩ : BufTy).Contents (Elt F) → (⟨S8192x1, .i32⟩ : BufTy).Contents (Elt F) → (⟨S8192x1, .i1⟩ : BufTy).Contents (Elt F)) :
    (TRef.binary (TRef.of (T := ⟨S8192x1, .i32⟩) main_v13) (TRef.of (T := ⟨S8192x1, .i32⟩) main_call2_v0) (TRef.of (T := ⟨S8192x1, .i1⟩) main_call2_v1) f : HloOp τ sig (Elt F))
      = binary main_v13 main_call2_v0 main_call2_v1 f := rfl

/-- Operation 42 over typed references is the same operation over the bare references, whatever its function. -/
theorem typed_op42 (f : (⟨S_, .i32⟩ : BufTy).Contents (Elt F) → (⟨S8192x1, .i32⟩ : BufTy).Contents (Elt F)) :
    (TRef.unary (TRef.of (T := ⟨S_, .i32⟩) main_call2_c_0) (TRef.of (T := ⟨S8192x1, .i32⟩) main_call2_v2) f : HloOp τ sig (Elt F))
      = unary main_call2_c_0 main_call2_v2 f := rfl

/-- Operation 43 over typed references is the same operation over the bare references, whatever its function. -/
theorem typed_op43 (f : (⟨S8192x1, .i32⟩ : BufTy).Contents (Elt F) → (⟨S8192x1, .i32⟩ : BufTy).Contents (Elt F) → (⟨S8192x1, .i32⟩ : BufTy).Contents (Elt F)) :
    (TRef.binary (TRef.of (T := ⟨S8192x1, .i32⟩) main_v13) (TRef.of (T := ⟨S8192x1, .i32⟩) main_call2_v2) (TRef.of (T := ⟨S8192x1, .i32⟩) main_call2_v3) f : HloOp τ sig (Elt F))
      = binary main_v13 main_call2_v2 main_call2_v3 f := rfl

/-- Operation 44 over typed references is the same operation over the bare references, whatever its function. -/
theorem typed_op44 (f : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) :
    (TRef.ternary (TRef.of (T := ⟨S8192x1, .i1⟩) main_call2_v1) (TRef.of (T := ⟨S8192x1, .i32⟩) main_call2_v3) (TRef.of (T := ⟨S8192x1, .i32⟩) main_v13) (TRef.of (T := ⟨S8192x1, .i32⟩) main_call2_v4) f : HloOp τ sig (Elt F))
      = ternary main_call2_v1 main_call2_v3 main_v13 main_call2_v4 f := rfl

/-- Operation 48 over typed references is the same operation over the bare references, whatever its function. -/
theorem typed_op48 (f : (⟨S_, .i32⟩ : BufTy).Contents (Elt F) → (⟨S8192x1x1, .i32⟩ : BufTy).Contents (Elt F)) :
    (TRef.unary (TRef.of (T := ⟨S_, .i32⟩) main_call2_c_2) (TRef.of (T := ⟨S8192x1x1, .i32⟩) main_call2_v6) f : HloOp τ sig (Elt F))
      = unary main_call2_c_2 main_call2_v6 f := rfl

/-- Operation 49 over typed references is the same operation over the bare references, whatever its function. -/
theorem typed_op49 (f : (⟨S8192x1x1, .i32⟩ : BufTy).Contents (Elt F) → (⟨S8192x1x1, .i32⟩ : BufTy).Contents (Elt F) → (⟨S8192x1x1, .i1⟩ : BufTy).Contents (Elt F)) :
    (TRef.binary (TRef.of (T := ⟨S8192x1x1, .i32⟩) main_call2_v5) (TRef.of (T := ⟨S8192x1x1, .i32⟩) main_call2_v6) (TRef.of (T := ⟨S8192x1x1, .i1⟩) main_call2_v7) f : HloOp τ sig (Elt F))
      = binary main_call2_v5 main_call2_v6 main_call2_v7 f := rfl

/-- Operation 50 over typed references is the same operation over the bare references, whatever its function. -/
theorem typed_op50 (f : (⟨S1, .i32⟩ : BufTy).Contents (Elt F) → (⟨S1x1x1, .i32⟩ : BufTy).Contents (Elt F)) :
    (TRef.unary (TRef.of (T := ⟨S1, .i32⟩) main_call2_c_1) (TRef.of (T := ⟨S1x1x1, .i32⟩) main_call2_v8) f : HloOp τ sig (Elt F))
      = unary main_call2_c_1 main_call2_v8 f := rfl

/-- Operation 51 over typed references is the same operation over the bare references, whatever its function. -/
theorem typed_op51 (f : (⟨S1x1x1, .i32⟩ : BufTy).Contents (Elt F) → (⟨S8192x1x1, .i32⟩ : BufTy).Contents (Elt F)) :
    (TRef.unary (TRef.of (T := ⟨S1x1x1, .i32⟩) main_call2_v8) (TRef.of (T := ⟨S8192x1x1, .i32⟩) main_call2_v9) f : HloOp τ sig (Elt F))
      = unary main_call2_v8 main_call2_v9 f := rfl

/-- Operation 52 over typed references is the same operation over the bare references, whatever its function. -/
theorem typed_op52 (f : (⟨S8192x1x1, .i32⟩ : BufTy).Contents (Elt F) → (⟨S8192x1x1, .i32⟩ : BufTy).Contents (Elt F) → (⟨S8192x1x1, .i1⟩ : BufTy).Contents (Elt F)) :
    (TRef.binary (TRef.of (T := ⟨S8192x1x1, .i32⟩) main_call2_v5) (TRef.of (T := ⟨S8192x1x1, .i32⟩) main_call2_v9) (TRef.of (T := ⟨S8192x1x1, .i1⟩) main_call2_v10) f : HloOp τ sig (Elt F))
      = binary main_call2_v5 main_call2_v9 main_call2_v10 f := rfl

/-- Operation 53 over typed references is the same operation over the bare references, whatever its function. -/
theorem typed_op53 (f : (⟨S8192x1x1, .i1⟩ : BufTy).Contents (Elt F) → (⟨S8192x1x1, .i1⟩ : BufTy).Contents (Elt F) → (⟨S8192x1x1, .i1⟩ : BufTy).Contents (Elt F)) :
    (TRef.binary (TRef.of (T := ⟨S8192x1x1, .i1⟩) main_call2_v7) (TRef.of (T := ⟨S8192x1x1, .i1⟩) main_call2_v10) (TRef.of (T := ⟨S8192x1x1, .i1⟩) main_call2_v11) f : HloOp τ sig (Elt F))
      = binary main_call2_v7 main_call2_v10 main_call2_v11 f := rfl

/-- Operation 55 over typed references is the same operation over the bare references, whatever its function. -/
theorem typed_op55 (f : (⟨S8192x1x1, .i1⟩ : BufTy).Contents (Elt F) → (⟨S_, .i1⟩ : BufTy).Contents (Elt F) → (⟨S8192x1, .i1⟩ : BufTy).Contents (Elt F)) :
    (TRef.binary (TRef.of (T := ⟨S8192x1x1, .i1⟩) main_call2_v11) (TRef.of (T := ⟨S_, .i1⟩) main_call2_c_3) (TRef.of (T := ⟨S8192x1, .i1⟩) main_call2_v12) f : HloOp τ sig (Elt F))
      = binary main_call2_v11 main_call2_c_3 main_call2_v12 f := rfl

/-- Operation 56 over typed references is the same operation over the bare references, whatever its function. -/
theorem typed_op56 (f : (⟨S8192x10532, .f32⟩ : BufTy).Contents (Elt F) → (⟨S8192x1x1, .i32⟩ : BufTy).Contents (Elt F) → (⟨S8192x1, .f32⟩ : BufTy).Contents (Elt F)) :
    (TRef.binary (TRef.of (T := ⟨S8192x10532, .f32⟩) main_v12) (TRef.of (T := ⟨S8192x1x1, .i32⟩) main_call2_v5) (TRef.of (T := ⟨S8192x1, .f32⟩) main_call2_v13) f : HloOp τ sig (Elt F))
      = binary main_v12 main_call2_v5 main_call2_v13 f := rfl

/-- Operation 58 over typed references is the same operation over the bare references, whatever its function. -/
theorem typed_op58 (f : (⟨S_, .f32⟩ : BufTy).Contents (Elt F) → (⟨S8192x1, .f32⟩ : BufTy).Contents (Elt F)) :
    (TRef.unary (TRef.of (T := ⟨S_, .f32⟩) main_call2_cst) (TRef.of (T := ⟨S8192x1, .f32⟩) main_call2_v14) f : HloOp τ sig (Elt F))
      = unary main_call2_cst main_call2_v14 f := rfl

/-- Operation 59 over typed references is the same operation over the bare references, whatever its function. -/
theorem typed_op59 (f : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) :
    (TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v14) f : HloOp τ sig (Elt F))
      = ternary main_call2_v12 main_call2_v13 main_call2_v14 main_v14 f := rfl

/-- Operation 68 over typed references is the same operation over the bare references, whatever its function. -/
theorem typed_op68 (f : (⟨S_, .f32⟩ : BufTy).Contents (Elt F) → (⟨S_, .f32⟩ : BufTy).Contents (Elt F)) :
    (TRef.unary (TRef.of (T := ⟨S_, .f32⟩) main_cst_5) (TRef.of (T := ⟨S_, .f32⟩) main_call3_v0) f : HloOp τ sig (Elt F))
      = unary main_cst_5 main_call3_v0 f := rfl

/-- Operation 69 over typed references is the same operation over the bare references, whatever its function. -/
theorem typed_op69 (f : (⟨S_, .f32⟩ : BufTy).Contents (Elt F) → (⟨S8192, .f32⟩ : BufTy).Contents (Elt F)) :
    (TRef.unary (TRef.of (T := ⟨S_, .f32⟩) main_call3_v0) (TRef.of (T := ⟨S8192, .f32⟩) main_call3_v1) f : HloOp τ sig (Elt F))
      = unary main_call3_v0 main_call3_v1 f := rfl

/-- Operation 70 over typed references is the same operation over the bare references, whatever its function. -/
theorem typed_op70 (f : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) :
    (TRef.ternary (TRef.of (T := ⟨S8192, .i1⟩) main_v10) (TRef.of (T := ⟨S8192, .f32⟩) main_v16) (TRef.of (T := ⟨S8192, .f32⟩) main_call3_v1) (TRef.of (T := ⟨S8192, .f32⟩) main_v20) f : HloOp τ sig (Elt F))
      = ternary main_v10 main_v16 main_call3_v1 main_v20 f := rfl

set_option maxRecDepth 8192 in
/-- The 74 operations are the ten stretches in order: an operation of an inlined function, stated over typed references,
    is the same operation over the bare references (its transports along the references' types are identities). -/
theorem ops_split : (ops : List (HloOp τ sig (Elt F))) = opsA ++ (opsB ++ (opsC ++ (opsD ++ (opsE ++ (opsG ++ (opsH ++ (opsI ++ (opsJ ++ (opsK))))))))) := by
  unfold ops
  rw [typed_op16, typed_op17, typed_op18, typed_op19, typed_op20, typed_op21, typed_op23, typed_op25, typed_op26, typed_op27, typed_op28, typed_op29, typed_op30, typed_op32, typed_op33, typed_op34, typed_op35, typed_op36, typed_op39, typed_op40, typed_op42, typed_op43, typed_op44, typed_op48, typed_op49, typed_op50, typed_op51, typed_op52, typed_op53, typed_op55, typed_op56, typed_op58, typed_op59, typed_op68, typed_op69, typed_op70]
  rfl

/-- From any contents, the 74 operations leave in the result buffer the last stage applied to the contents of the four
    argument buffers: stretch by stretch, each handing the next the stages it reads. -/
theorem result (V : Valuation τ sig (Elt F)) :
    after ops V (Proc.devRef .tc main_v22)
      = val_main_v22 (F := F) (V (Proc.devRef .tc main_arg0)) (V (Proc.devRef .tc main_arg1))
          (V (Proc.devRef .tc main_arg2)) (V (Proc.devRef .tc main_arg3)) := by
  rw [ops_split]
  simp only [StableHlo.after_append]
  obtain ⟨a_v1, a_v3, a_v5⟩ := chunkA V (V (Proc.devRef .tc main_arg0)) (V (Proc.devRef .tc main_arg1)) (V (Proc.devRef .tc main_arg2)) (V (Proc.devRef .tc main_arg3)) rfl rfl rfl rfl
  generalize after opsA V = W1 at a_v1 a_v3 a_v5 ⊢
  obtain ⟨b_v1, b_v8, b_v10⟩ := chunkB W1 _ _ _ _ a_v1 a_v3 a_v5
  generalize after opsB W1 = W2 at b_v1 b_v8 b_v10 ⊢
  obtain ⟨c_v8, c_v10, c_v11⟩ := chunkC W2 _ _ _ _ b_v1 b_v8 b_v10
  generalize after opsC W2 = W3 at c_v8 c_v10 c_v11 ⊢
  obtain ⟨d_v10, d_v11, d_call1_v5, d_call1_v6⟩ := chunkD W3 _ _ _ _ c_v8 c_v10 c_v11
  generalize after opsD W3 = W4 at d_v10 d_v11 d_call1_v5 d_call1_v6 ⊢
  obtain ⟨e_v10, e_v11, e_v12⟩ := chunkE W4 _ _ _ _ d_v10 d_v11 d_call1_v5 d_call1_v6
  generalize after opsE W4 = W5 at e_v10 e_v11 e_v12 ⊢
  obtain ⟨g_v10, g_v12, g_call2_v5⟩ := chunkG W5 _ _ _ _ e_v10 e_v11 e_v12
  generalize after opsG W5 = W6 at g_v10 g_v12 g_call2_v5 ⊢
  obtain ⟨h_v10, h_v12, h_call2_v5, h_call2_v12⟩ := chunkH W6 _ _ _ _ g_v10 g_v12 g_call2_v5
  generalize after opsH W6 = W7 at h_v10 h_v12 h_call2_v5 h_call2_v12 ⊢
  obtain ⟨i_v10, i_v14⟩ := chunkI W7 _ _ _ _ h_v10 h_v12 h_call2_v5 h_call2_v12
  generalize after opsI W7 = W8 at i_v10 i_v14 ⊢
  obtain ⟨j_v10, j_v16, j_v19⟩ := chunkJ W8 _ _ _ _ i_v10 i_v14
  generalize after opsJ W8 = W9 at j_v10 j_v16 j_v19 ⊢
  exact chunkK W9 _ _ _ _ j_v10 j_v16 j_v19

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = val_main_v22 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v22).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.RefLogp.lean ====
/-
  The plain program's log-softmax, read at a row and a column: the scaled logit minus the row maximum minus the
  log of the row's sum of shifted exponentials.
-/
import proofs.«412923_j54760833024747_1_alg».proof.Proof.RefStages
import proofs.«412923_j54760833024747_1_alg».proof.Proof.Spec
import Idealize.ShloMosaic.Lib.ValueIdx
import Idealize.ShloMosaic.Lib.Pipeline.Value
import Idealize.ShloMosaic.PureOps.Ideal.Laws

noncomputable section

namespace Cert.ReferenceIdeal.RefLogp

open Cert.ReferenceIdeal Cert.ReferenceIdeal.Gen Cert.ReferenceIdeal.ReadP Cert.OimLoss
open Idealize.ShloMosaic Idealize.ShloMosaic.ValueIdx

/-! ## The logits -/

/-- The features against the look-up table: row `r` times table row `c`. -/
theorem lut_dot (X : (⟨S8192x256, .f32⟩ : BufTy).Contents (Elt Ideal)) (lut : (⟨S5532x256, .f32⟩ : BufTy).Contents (Elt Ideal))
    (r : Fin 8192) (c : Fin 5532) :
    val_main_v3 (F := Ideal) X lut (ix2 r c) = ∑ d : Fin 256, X (ix2 r d) * lut (ix2 c d) := by
  rw [val_main_v3_apply]
  refine Finset.sum_congr rfl fun k _ => ?_
  rw [val_main_v2_apply]
  exact congrArg₂ (· * ·)
    (congrArg X (funext fun a => Fin.ext (by match a with | ⟨0, _⟩ => rfl | ⟨1, _⟩ => rfl)))
    (congrArg lut (funext fun a => Fin.ext (by match a with | ⟨0, _⟩ => rfl | ⟨1, _⟩ => rfl)))

/-- The features against the queue: row `r` times queue row `c`. -/
theorem cq_dot (X : (⟨S8192x256, .f32⟩ : BufTy).Contents (Elt Ideal)) (cq : (⟨S5000x256, .f32⟩ : BufTy).Contents (Elt Ideal))
    (r : Fin 8192) (c : Fin 5000) :
    val_main_v5 (F := Ideal) X cq (ix2 r c) = ∑ d : Fin 256, X (ix2 r d) * cq (ix2 c d) := by
  rw [val_main_v5_apply]
  refine Finset.sum_congr rfl fun k _ => ?_
  rw [val_main_v4_apply]
  exact congrArg₂ (· * ·)
    (congrArg X (funext fun a => Fin.ext (by match a with | ⟨0, _⟩ => rfl | ⟨1, _⟩ => rfl)))
    (congrArg cq (funext fun a => Fin.ext (by match a with | ⟨0, _⟩ => rfl | ⟨1, _⟩ => rfl)))

/-- Side by side, a column of the look-up table's part reads the first piece. -/
theorem side_left (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) (c : Fin 10532) (h : c.val < 5532) :
    val_main_v6 (F := Ideal) X lut cq (ix2 r c) = val_main_v3 (F := Ideal) X lut (ix2 r ⟨c.val, h⟩) := by
  unfold val_main_v6
  exact concatenate_pair_apply_left (s₁ := S8192x5532) (s₂ := S8192x5000) 1 _ _ _ (ix2 r c) rfl (ix2 r ⟨c.val, h⟩)
    (fun b => by match b with | ⟨0, _⟩ => rfl | ⟨1, _⟩ => rfl)

/-- Side by side, a column past the look-up table reads the queue's piece, 5532 columns back. -/
theorem side_right (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) (c : Fin 10532) (h : ¬ c.val < 5532) :
    val_main_v6 (F := Ideal) X lut cq (ix2 r c)
      = val_main_v5 (F := Ideal) X cq (ix2 r ⟨c.val - 5532, by have := c.isLt; omega⟩) := by
  unfold val_main_v6
  exact concatenate_pair_apply_right (s₁ := S8192x5532) (s₂ := S8192x5000) 1 _ _ _ (ix2 r c) rfl rfl
    (ix2 r ⟨c.val - 5532, by have := c.isLt; omega⟩)
    (fun b hb => by match b with | ⟨0, _⟩ => rfl | ⟨1, _⟩ => exact absurd rfl hb)
    (by show c.val - 5532 + 5532 = c.val; omega)

/-- The scaled logits: features against the look-up table and the queue side by side. -/
theorem logits_apply (X : (⟨S8192x256, .f32⟩ : BufTy).Contents (Elt Ideal))
    (lut : (⟨S5532x256, .f32⟩ : BufTy).Contents (Elt Ideal)) (cq : (⟨S5000x256, .f32⟩ : BufTy).Contents (Elt Ideal))
    (r : Fin 8192) (c : Fin 10532) :
    val_main_v8 (F := Ideal) X lut cq (ix2 r c) = logit (rowOf X r) (wpad lut cq) c.val := by
  rw [val_main_v8_apply, val_main_v7_apply, val_main_cst_apply, Ideal.mulf_def, Ideal.ofBits_def]
  unfold logit dot
  refine congrArg (· * scale) ?_
  by_cases h : c.val < 5532
  · rw [side_left X lut cq r c h, lut_dot]
    refine Finset.sum_congr rfl fun d _ => ?_
    unfold rowOf wpad
    rw [dif_pos h]
  · rw [side_right X lut cq r c h, cq_dot]
    refine Finset.sum_congr rfl fun d _ => ?_
    unfold rowOf wpad
    rw [dif_neg h, dif_pos c.isLt]

/-! ## The row maximum, the sum of shifted exponentials, the log-softmax -/

/-- The float word of minus infinity. -/
theorem neg_inf_word : Ideal.ofBits .f32 0xFF800000#32 = ⊥ := rfl

/-- Row `r` with column `c` put back is the index `(r, c)`. -/
theorem lift_row (h : S8192x10532.Reduces [1] S8192) (r : Fin 8192) (c : Fin 10532) :
    h.lift (ix1 r) c = ix2 r c :=
  funext fun a => Fin.ext (by match a with | ⟨0, _⟩ => rfl | ⟨1, _⟩ => rfl)

/-- The maximum over a row of the logits, from minus infinity. -/
theorem rowfold_apply (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) :
    val_main_call1_v0 (F := Ideal) X lut cq (ix1 r)
      = (Finset.univ : Finset (Fin 10532)).fold max ⊥ (fun c => logit (rowOf X r) (wpad lut cq) c.val) := by
  have h : S8192x10532.Reduces [1] S8192 := by decide
  unfold val_main_call1_v0
  rw [Host.reduce_eq_fold_single FloatOps.maximumf _ _ reducesTo_S8192x10532_S8192_d1 h h_S_ (ix1 r),
    val_main_call1_cst_apply, Ideal.ofBits_def, neg_inf_word]
  have hf : (val_main_v8 (F := Ideal) X lut cq ∘ h.lift (ix1 r))
      = fun c : Fin 10532 => logit (rowOf X r) (wpad lut cq) c.val :=
    funext fun (c : Fin 10532) =>
      (congrArg (val_main_v8 (F := Ideal) X lut cq) (lift_row h r c)).trans (logits_apply X lut cq r c)
  rw [hf]
  rfl

/-- The row maximum as the plain program takes it. -/
theorem rowmax_apply (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) :
    val_main_call1_v2 (F := Ideal) X lut cq (ix1 r)
      = refMax (fun c : Fin 10532 => logit (rowOf X r) (wpad lut cq) c.val) := by
  rw [val_main_call1_v2_apply, val_main_call1_v1_apply, val_main_call1_cst_0_apply, Ideal.maximumf_def,
    Ideal.ofBits_def, neg_inf_word, rowfold_apply]
  rfl

/-- A logit less its row's maximum. -/
theorem shifted_apply (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) (c : Fin 10532) :
    val_main_call1_v5 (F := Ideal) X lut cq (ix2 r c)
      = logit (rowOf X r) (wpad lut cq) c.val
        - refMax (fun c' : Fin 10532 => logit (rowOf X r) (wpad lut cq) c'.val) := by
  have e : idx_main_call1_v3 (idx_main_call1_v4 (ix2 r c)) = ix1 r :=
    funext fun a => Fin.ext (by match a with | ⟨0, _⟩ => rfl)
  rw [val_main_call1_v5_apply, val_main_call1_v4_apply, val_main_call1_v3_apply, Ideal.subf_def, logits_apply, e,
    rowmax_apply]

/-- The row's sum of shifted exponentials. -/
theorem rowsum_apply (X : (⟨S8192x256, .f32⟩ : BufTy).Contents (Elt Ideal)) (lut : (⟨S5532x256, .f32⟩ : BufTy).Contents (Elt Ideal)) (cq : (⟨S5000x256, .f32⟩ : BufTy).Contents (Elt Ideal))
    (r : Fin 8192) :
    val_main_call1_v7 (F := Ideal) X lut cq (ix1 r)
      = refZ (fun c : Fin 10532 => logit (rowOf X r) (wpad lut cq) c.val) := by
  rw [val_main_call1_v7_apply, val_main_call1_cst_1_apply, Ideal.ofBits_def, Ideal.ofBits_zero_f32]
  unfold refZ
  refine congrArg (0 + ·) (Finset.sum_congr rfl fun k _ => ?_)
  have e : idx_main_call1_v7 (ix1 r) k = ix2 r k :=
    funext fun a => Fin.ext (by match a with | ⟨0, _⟩ => rfl | ⟨1, _⟩ => rfl)
  rw [e, val_main_call1_v6_apply, Ideal.hostUnary_exp_def, shifted_apply]

/-- The log-softmax at row `r`, column `c`. -/
theorem logp_apply (X : (⟨S8192x256, .f32⟩ : BufTy).Contents (Elt Ideal))
    (lut : (⟨S5532x256, .f32⟩ : BufTy).Contents (Elt Ideal)) (cq : (⟨S5000x256, .f32⟩ : BufTy).Contents (Elt Ideal))
    (r : Fin 8192) (c : Fin 10532) :
    val_main_v12 (F := Ideal) X lut cq (ix2 r c)
      = refLogp (fun c' : Fin 10532 => logit (rowOf X r) (wpad lut cq) c'.val) c := by
  have e : idx_main_call1_v8 (idx_main_call1_v10 (ix2 r c)) = ix1 r :=
    funext fun a => Fin.ext (by match a with | ⟨0, _⟩ => rfl)
  rw [val_main_v12_apply, val_main_call1_v10_apply, val_main_call1_v9_apply, val_main_call1_v8_apply, Ideal.subf_def,
    Ideal.hostUnary_log_def, e, rowsum_apply, shifted_apply]
  rfl

end Cert.ReferenceIdeal.RefLogp

end
-- ==== Proof.RefValue.lean ====
/-
  The plain program's result, read stage by stage: the logits are the features against the look-up table and
  the queue side by side, scaled by 30; the log-softmax subtracts the row maximum and the log of the sum of
  exponentials; the loss gathers it at the clipped label, negates, zeroes the ignored rows, and divides the
  sum by the number of valid rows (at least one).
-/
import proofs.«412923_j54760833024747_1_alg».proof.Proof.RefStages
import proofs.«412923_j54760833024747_1_alg».proof.Proof.Spec
import proofs.«412923_j54760833024747_1_alg».proof.Proof.RefLogp
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Cert.OimLoss
open Idealize.ShloMosaic Idealize.ShloMosaic.ValueIdx

/-! ## The clipped label as a word -/

/-- The label clipped into the table's columns, as a word: the smaller of 10531 and the larger of 0 and the label. -/
def clipW (lab : BitVec 32) : BitVec 32 := IntOp.minsi 10531#32 (IntOp.maxsi 0#32 lab)

/-- Read as a signed integer, the clipped word is the clipped column. -/
theorem clipW_toInt (lab : BitVec 32) : (clipW lab).toInt = ((clipCol lab).val : ℤ) := by
  have h10 : (10531#32 : BitVec 32).toInt = 10531 := by decide
  have h00 : (0#32 : BitVec 32).toInt = 0 := by decide
  by_cases h0 : lab.toInt < 0
  · have e1 : lab.slt 0#32 = true := by rw [BitVec.slt_iff_toInt_lt, h00]; exact h0
    have hm : IntOp.maxsi 0#32 lab = 0#32 := by unfold IntOp.maxsi; rw [e1]; rfl
    have hc : clipCol lab = ⟨0, by decide⟩ := by unfold clipCol; rw [dif_pos h0]
    unfold clipW
    rw [hm, hc]
    rfl
  · have e1 : lab.slt 0#32 = false := by
      rw [Bool.eq_false_iff]; intro h; rw [BitVec.slt_iff_toInt_lt, h00] at h; exact h0 h
    have hm : IntOp.maxsi 0#32 lab = lab := by unfold IntOp.maxsi; rw [e1]; rfl
    unfold clipW
    rw [hm]
    by_cases h1 : 10531 < lab.toInt
    · have e2 : (10531#32 : BitVec 32).slt lab = true := by rw [BitVec.slt_iff_toInt_lt, h10]; exact h1
      have hc : clipCol lab = ⟨10531, by decide⟩ := by unfold clipCol; rw [dif_neg h0, dif_pos h1]
      have hn : IntOp.minsi 10531#32 lab = 10531#32 := by unfold IntOp.minsi; rw [e2]; rfl
      rw [hn, hc, h10]
      rfl
    · have e2 : (10531#32 : BitVec 32).slt lab = false := by
        rw [Bool.eq_false_iff]; intro h; rw [BitVec.slt_iff_toInt_lt, h10] at h; exact h1 h
      have hc : clipCol lab = ⟨lab.toInt.toNat, by omega⟩ := by unfold clipCol; rw [dif_neg h0, dif_neg h1]
      have hn : IntOp.minsi 10531#32 lab = lab := by unfold IntOp.minsi; rw [e2]; rfl
      rw [hn, hc]
      show lab.toInt = ((lab.toInt.toNat : ℕ) : ℤ)
      rw [Int.toNat_of_nonneg (by omega)]

theorem clipW_nonneg (lab : BitVec 32) : 0 ≤ (clipW lab).toInt := by
  rw [clipW_toInt]; exact Int.natCast_nonneg _

theorem clipW_le (lab : BitVec 32) : (clipW lab).toInt ≤ 10531 := by
  rw [clipW_toInt]; have := (clipCol lab).isLt; omega

/-- The clipped word is not below 0, … -/
theorem clipW_slt_zero (lab : BitVec 32) : IntOp.cmpi .slt (clipW lab) 0#32 = 0#1 := by
  have h00 : (0#32 : BitVec 32).toInt = 0 := by decide
  have h := clipW_nonneg lab
  have e : (clipW lab).slt 0#32 = false := by
    rw [Bool.eq_false_iff]; intro h'; rw [BitVec.slt_iff_toInt_lt, h00] at h'; omega
  show BitVec.ofBool ((clipW lab).slt 0#32) = 0#1
  rw [e]; rfl

/-- … at least 0, … -/
theorem clipW_sge_zero (lab : BitVec 32) : IntOp.cmpi .sge (clipW lab) 0#32 = 1#1 := by
  have h00 : (0#32 : BitVec 32).toInt = 0 := by decide
  have h := clipW_nonneg lab
  have e : (0#32 : BitVec 32).sle (clipW lab) = true := by rw [BitVec.sle_iff_toInt_le, h00]; exact h
  show BitVec.ofBool ((0#32 : BitVec 32).sle (clipW lab)) = 1#1
  rw [e]; rfl

/-- … and at most 10531. -/
theorem clipW_sle_max (lab : BitVec 32) : IntOp.cmpi .sle (clipW lab) 10531#32 = 1#1 := by
  have h10 : (10531#32 : BitVec 32).toInt = 10531 := by decide
  have h := clipW_le lab
  have e : (clipW lab).sle 10531#32 = true := by rw [BitVec.sle_iff_toInt_le, h10]; exact h
  show BitVec.ofBool ((clipW lab).sle 10531#32) = 1#1
  rw [e]; rfl

/-- The column the gather reads for the clipped word is the clipped column. -/
theorem clipW_col (lab : BitVec 32) : min (clipW lab).toInt.toNat (10532 - 1) = (clipCol lab).val := by
  rw [clipW_toInt, Int.toNat_natCast]
  have := (clipCol lab).isLt
  omega

/-! ## Indices by coordinates -/

theorem idx13_ix2 (r : Fin 8192) : idx_main_v13 (ix2 r (0 : Fin 1)) = ix1 r := by
  funext a
  match a with
  | ⟨0, _⟩ => rfl

theorem idx15_ix1 (r : Fin 8192) : idx_main_v15 (ix1 r) = ix2 r (0 : Fin 1) := by
  funext a
  refine Fin.ext ?_
  match a with
  | ⟨0, _⟩ => exact Nat.div_one _
  | ⟨1, _⟩ => rfl

theorem idx5_ix3 (r : Fin 8192) : idx_main_call2_v5 (ix3 r (0 : Fin 1) (0 : Fin 1)) = ix2 r (0 : Fin 1) := by
  funext a
  refine Fin.ext ?_
  match a with
  | ⟨0, _⟩ =>
    show ((r.val * 1 + 0) * 1 + 0) / 1 = r.val
    omega
  | ⟨1, _⟩ => rfl

/-- A sum over a rank-1 index set is the sum over its coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of one element per row -/

/-- The batched gather at row `r`: the operand's row `r` at the start index read signed and clamped. -/
theorem gather_row {α : Type} (x : S8192x10532.Idx → α) (idx : IVec S8192x1x1 32) (r : Fin 8192) :
    Host.gather gather_S8192x10532_S8192x1x1_S8192x1_n_1_0_0_1_2_11 x idx (ix2 r (0 : Fin 1))
      = x (ix2 r ⟨min (idx (ix3 r (0 : Fin 1) (0 : Fin 1))).toInt.toNat (10532 - 1), by omega⟩) := by
  unfold Host.gather
  congr 1
  funext a
  refine Fin.ext ?_
  match a with
  | ⟨0, _⟩ =>
    calc ((gather_S8192x10532_S8192x1x1_S8192x1_n_1_0_0_1_2_11).operandIdx (ix2 r (0 : Fin 1)) idx ⟨0, _⟩).val = 0 + r.val + 0 := rfl
      _ = r.val := by omega
  | ⟨1, _⟩ =>
    have hsi : (gather_S8192x10532_S8192x1x1_S8192x1_n_1_0_0_1_2_11).siIdx (ix2 r (0 : Fin 1)) ⟨0, by decide⟩ = ix3 r (0 : Fin 1) (0 : Fin 1) := by
      funext b
      refine Fin.ext ?_
      match b with
      | ⟨0, _⟩ => rfl
      | ⟨1, _⟩ => rfl
      | ⟨2, _⟩ => rfl
    calc ((gather_S8192x10532_S8192x1x1_S8192x1_n_1_0_0_1_2_11).operandIdx (ix2 r (0 : Fin 1)) idx ⟨1, _⟩).val
        = min (idx ((gather_S8192x10532_S8192x1x1_S8192x1_n_1_0_0_1_2_11).siIdx (ix2 r (0 : Fin 1)) ⟨0, by decide⟩)).toInt.toNat (10532 - 1) + 0 + 0 := rfl
      _ = min (idx (ix3 r (0 : Fin 1) (0 : Fin 1))).toInt.toNat (10532 - 1) := by rw [hsi]; omega

/-- The same, with the start index and the column it clamps to named. -/
theorem gather_row_of {α : Type} (x : S8192x10532.Idx → α) (idx : IVec S8192x1x1 32) (r : Fin 8192) (w : BitVec 32)
    (hw : idx (ix3 r (0 : Fin 1) (0 : Fin 1)) = w) (c : Fin 10532) (hc : min w.toInt.toNat (10532 - 1) = c.val) :
    Host.gather gather_S8192x10532_S8192x1x1_S8192x1_n_1_0_0_1_2_11 x idx (ix2 r (0 : Fin 1)) = x (ix2 r c) := by
  refine (gather_row x idx r).trans (congrArg (fun c => x (ix2 r c)) (Fin.ext ?_))
  show min (idx (ix3 r (0 : Fin 1) (0 : Fin 1))).toInt.toNat (10532 - 1) = c.val
  rw [hw]
  exact hc

/-! ## The label's stages at row `r` -/

/-- The label: the given id minus one. -/
theorem v1_row (A : (⟨S8192, .i32⟩ : BufTy).Contents (Elt Ideal)) (r : Fin 8192) : val_main_v1 (F := Ideal) A (ix1 r) = labOf A r := by
  rw [val_main_v1_apply, val_main_v0_apply, val_main_c_apply]
  rfl

/-- The test "the row counts". -/
theorem v10_row (A : (⟨S8192, .i32⟩ : BufTy).Contents (Elt Ideal)) (r : Fin 8192) :
    val_main_v10 (F := Ideal) A (ix1 r) = IntOp.cmpi .ne (labOf A r) 5554#32 := by
  rw [val_main_v10_apply, v1_row, val_main_v9_apply, val_main_c_0_apply]

/-- The clipped label. -/
theorem v11_row (A : (⟨S8192, .i32⟩ : BufTy).Contents (Elt Ideal)) (r : Fin 8192) : val_main_v11 (F := Ideal) A (ix1 r) = clipW (labOf A r) := by
  rw [val_main_v11_apply, val_main_call0_v4_apply, val_main_call0_v3_apply, val_main_c_2_apply,
    val_main_call0_v2_apply, val_main_call0_v1_apply, val_main_call0_v0_apply, val_main_c_1_apply, v1_row]
  rfl

theorem v13_row (A : (⟨S8192, .i32⟩ : BufTy).Contents (Elt Ideal)) (r : Fin 8192) :
    val_main_v13 (F := Ideal) A (ix2 r (0 : Fin 1)) = clipW (labOf A r) := by
  rw [val_main_v13_apply, idx13_ix2, v11_row]

/-- The clipped label is not negative, so the wrap-around of a negative index leaves it. -/
theorem c2v4_row (A : (⟨S8192, .i32⟩ : BufTy).Contents (Elt Ideal)) (r : Fin 8192) :
    val_main_call2_v4 (F := Ideal) A (ix2 r (0 : Fin 1)) = clipW (labOf A r) := by
  rw [val_main_call2_v4_apply, val_main_call2_v1_apply, v13_row, val_main_call2_v0_apply, val_main_call2_c_apply,
    clipW_slt_zero, select_zero]

theorem c2v5_row (A : (⟨S8192, .i32⟩ : BufTy).Contents (Elt Ideal)) (r : Fin 8192) :
    val_main_call2_v5 (F := Ideal) A (ix3 r (0 : Fin 1) (0 : Fin 1)) = clipW (labOf A r) := by
  rw [val_main_call2_v5_apply, idx5_ix3, c2v4_row]

/-- The in-range test of the gather's index holds at every row. -/
theorem c2v11_row (A : (⟨S8192, .i32⟩ : BufTy).Contents (Elt Ideal)) (r : Fin 8192) :
    val_main_call2_v11 (F := Ideal) A (ix3 r (0 : Fin 1) (0 : Fin 1)) = 1#1 := by
  rw [val_main_call2_v11_apply, val_main_call2_v7_apply, val_main_call2_v10_apply, c2v5_row,
    val_main_call2_v6_apply, val_main_call2_c_2_apply, val_main_call2_v9_apply, val_main_call2_v8_apply,
    val_main_call2_c_1_apply, clipW_sge_zero, clipW_sle_max]
  rfl

theorem c2v11_all (A : (⟨S8192, .i32⟩ : BufTy).Contents (Elt Ideal)) (i : S8192x1x1.Idx) : val_main_call2_v11 (F := Ideal) A i = 1#1 := by
  have hi : i = ix3 (i 0) (0 : Fin 1) (0 : Fin 1) := by
    funext a
    match a with
    | ⟨0, _⟩ => rfl
    | ⟨1, _⟩ => exact Fin.ext (Nat.lt_one_iff.mp (i 1).isLt)
    | ⟨2, _⟩ => exact Fin.ext (Nat.lt_one_iff.mp (i 2).isLt)
  exact (congrArg (val_main_call2_v11 (F := Ideal) A) hi).trans (c2v11_row A (i 0))

/-- A left fold by `and` from 1 over 1s is 1. -/
theorem foldl_andi_ones {ι : Type} (g : ι → BitVec 1) (hg : ∀ n, g n = 1#1) :
    ∀ l : List ι, l.foldl (fun r n => IntOp.andi r (g n)) 1#1 = 1#1
  | [] => rfl
  | a :: l => by
    have h11 : IntOp.andi 1#1 1#1 = 1#1 := by decide
    rw [List.foldl_cons, hg a, h11]
    exact foldl_andi_ones g hg l

theorem c2v12_row (A : (⟨S8192, .i32⟩ : BufTy).Contents (Elt Ideal)) (r : Fin 8192) :
    val_main_call2_v12 (F := Ideal) A (ix2 r (0 : Fin 1)) = 1#1 := by
  unfold val_main_call2_v12 Host.reduce
  exact foldl_andi_ones (fun n => val_main_call2_v11 (F := Ideal) A (S8192x1x1.rowMajor.symm n))
    (fun n => c2v11_all A _) _

/-! ## The row's loss and its validity flag -/

/-- The gathered element: the log-softmax at the clipped label's column. -/
theorem c2v13_row (X : (⟨S8192x256, .f32⟩ : BufTy).Contents (Elt Ideal)) (A : (⟨S8192, .i32⟩ : BufTy).Contents (Elt Ideal))
    (lut : (⟨S5532x256, .f32⟩ : BufTy).Contents (Elt Ideal)) (cq : (⟨S5000x256, .f32⟩ : BufTy).Contents (Elt Ideal)) (r : Fin 8192) :
    val_main_call2_v13 (F := Ideal) X A lut cq (ix2 r (0 : Fin 1))
      = refLogp (fun c' : Fin 10532 => logit (rowOf X r) (wpad lut cq) c'.val) (clipCol (labOf A r)) := by
  unfold val_main_call2_v13
  refine (gather_row_of (val_main_v12 (F := Ideal) X lut cq) (val_main_call2_v5 (F := Ideal) A) r (clipW (labOf A r))
    (c2v5_row A r) (clipCol (labOf A r)) (clipW_col (labOf A r))).trans ?_
  exact Cert.ReferenceIdeal.RefLogp.logp_apply X lut cq r (clipCol (labOf A r))

theorem v15_row (X : (⟨S8192x256, .f32⟩ : BufTy).Contents (Elt Ideal)) (A : (⟨S8192, .i32⟩ : BufTy).Contents (Elt Ideal))
    (lut : (⟨S5532x256, .f32⟩ : BufTy).Contents (Elt Ideal)) (cq : (⟨S5000x256, .f32⟩ : BufTy).Contents (Elt Ideal)) (r : Fin 8192) :
    val_main_v15 (F := Ideal) X A lut cq (ix1 r)
      = refLogp (fun c' : Fin 10532 => logit (rowOf X r) (wpad lut cq) c'.val) (clipCol (labOf A r)) := by
  rw [val_main_v15_apply, idx15_ix1, val_main_v14_apply, c2v12_row, select_one, c2v13_row]

/-- The row's loss: the negated log-softmax at the clipped label, 0 on an ignored row. -/
theorem v20_row (X : (⟨S8192x256, .f32⟩ : BufTy).Contents (Elt Ideal)) (A : (⟨S8192, .i32⟩ : BufTy).Contents (Elt Ideal))
    (lut : (⟨S5532x256, .f32⟩ : BufTy).Contents (Elt Ideal)) (cq : (⟨S5000x256, .f32⟩ : BufTy).Contents (Elt Ideal)) (r : Fin 8192) :
    val_main_v20 (F := Ideal) X A lut cq (ix1 r) = nllR (rowOf X r) (wpad lut cq) (labOf A r) := by
  rw [val_main_v20_apply, v10_row, val_main_v16_apply, v15_row, val_main_call3_v1_apply, val_main_call3_v0_apply,
    val_main_cst_5_apply]
  unfold nllR
  by_cases h : labOf A r = 5554#32
  · have hc : IntOp.cmpi .ne (labOf A r) 5554#32 = 0#1 := by rw [h]; decide
    rw [hc, select_zero, if_neg (not_not.mpr h)]
    exact Ideal.ofBits_zero_f32
  · have hc : IntOp.cmpi .ne (labOf A r) 5554#32 = 1#1 := by
      show BitVec.ofBool (labOf A r != 5554#32) = 1#1
      rw [bne_iff_ne.mpr h]; rfl
    rw [hc, select_one, if_pos h]
    rfl

/-- The row's validity flag. -/
theorem v17_row (A : (⟨S8192, .i32⟩ : BufTy).Contents (Elt Ideal)) (r : Fin 8192) : val_main_v17 (F := Ideal) A (ix1 r) = validK (labOf A r) := by
  rw [val_main_v17_apply, v10_row]
  unfold validK
  by_cases h : labOf A r = 5554#32
  · have hc : IntOp.cmpi .ne (labOf A r) 5554#32 = 0#1 := by rw [h]; decide
    rw [hc, if_neg (not_not.mpr h)]
    show (((0#1 : BitVec 1).toNat : ℝ) : EReal) = 0
    simp
  · have hc : IntOp.cmpi .ne (labOf A r) 5554#32 = 1#1 := by
      show BitVec.ofBool (labOf A r != 5554#32) = 1#1
      rw [bne_iff_ne.mpr h]; rfl
    rw [hc, if_pos h]
    show (((1#1 : BitVec 1).toNat : ℝ) : EReal) = 1
    simp

/-- The plain program's result is the plain loss of its arguments. -/
theorem ref_value (X : (⟨S8192x256, .f32⟩ : BufTy).Contents (Elt Ideal)) (A : (⟨S8192, .i32⟩ : BufTy).Contents (Elt Ideal))
    (lut : (⟨S5532x256, .f32⟩ : BufTy).Contents (Elt Ideal)) (cq : (⟨S5000x256, .f32⟩ : BufTy).Contents (Elt Ideal)) :
    val_main_v22 (F := Ideal) X A lut cq = fun _ => lossR X A lut cq := by
  funext i
  rw [val_main_v22_apply, val_main_v21_apply, val_main_v19_apply, val_main_v18_apply, val_main_cst_6_apply,
    val_main_cst_3_apply, val_main_cst_4_apply]
  unfold lossR lossOf
  rw [sum_idx1 (fun j => val_main_v20 (F := Ideal) X A lut cq j), sum_idx1 (fun j => val_main_v17 (F := Ideal) A j)]
  simp only [v20_row, v17_row]
  rw [Ideal.hostDivf_def, Ideal.maximumf_def, Ideal.ofBits_def, Ideal.ofBits_def, Ideal.ofBits_zero_f32]

end Cert.ReferenceIdeal.RefValue

end
-- ==== Proof.lean ====
/-
  The certificate's claims, assembled.

  The streamed program walks each row's 10532 logits in eleven tiles of 1024 columns (the last 732 columns are
  padding, scored -∞), keeping a running maximum, a running sum of exponentials rescaled whenever the maximum
  moves, and the logit at the label's column; the plain program takes each row's log-softmax whole and gathers it
  at the (clipped) label.  On real inputs and labels inside the table both give, per row,
  `log ∑ exp logit - logit label`, and both end with the same mean over the rows that are not ignored.
-/
import proofs.«412923_j54760833024747_1_alg».proof.Defs
import proofs.«412923_j54760833024747_1_alg».proof.Proof.Gen.Kernel
import proofs.«412923_j54760833024747_1_alg».proof.Proof.Gen.Kernel.Skeleton
import proofs.«412923_j54760833024747_1_alg».proof.Proof.Gen.Kernel.Launch
import proofs.«412923_j54760833024747_1_alg».proof.Proof.Gen.Kernel.Points
import proofs.«412923_j54760833024747_1_alg».proof.Proof.Gen.Kernel.Frame
import proofs.«412923_j54760833024747_1_alg».proof.Proof.Gen.KernelIdeal
import proofs.«412923_j54760833024747_1_alg».proof.Proof.Gen.KernelIdeal.Skeleton
import proofs.«412923_j54760833024747_1_alg».proof.Proof.Gen.KernelIdeal.Launch
import proofs.«412923_j54760833024747_1_alg».proof.Proof.Gen.KernelIdeal.Points
import proofs.«412923_j54760833024747_1_alg».proof.Proof.Gen.KernelIdeal.Frame
import proofs.«412923_j54760833024747_1_alg».proof.Proof.Gen.ReferenceIdeal
import proofs.«412923_j54760833024747_1_alg».proof.Proof.Gen.Pre_finite_inputs
import proofs.«412923_j54760833024747_1_alg».proof.Proof.Spec
import proofs.«412923_j54760833024747_1_alg».proof.Proof.RowMath
import proofs.«412923_j54760833024747_1_alg».proof.Proof.PreDecode
import proofs.«412923_j54760833024747_1_alg».proof.Proof.KernelValue
import proofs.«412923_j54760833024747_1_alg».proof.Proof.RefRun
import proofs.«412923_j54760833024747_1_alg».proof.Proof.RefValue
import Idealize.ShloMosaic.Adequacy
import Idealize.ShloMosaic.Init

noncomputable section

namespace Cert.Proof

open Idealize.ShloMosaic Idealize.ShloMosaic.ValueIdx Idealize.SL.Sem Cert.OimLoss

/-- Every row of the padded table is real when the look-up table and the queue are. -/
theorem wpad_real (lut : (⟨2, ![5532, 256]⟩ : Shape).Idx → EReal) (cq : (⟨2, ![5000, 256]⟩ : Shape).Idx → EReal)
    (hl : ∀ i, ∃ a : ℝ, lut i = (a : EReal)) (hq : ∀ i, ∃ a : ℝ, cq i = (a : EReal)) (c : ℕ) (hc : c < 10532) (d : Fin 256) :
    ∃ a : ℝ, wpad lut cq c d = (a : EReal) := by
  unfold wpad
  by_cases h : c < 5532
  · rw [dif_pos h]; exact hl _
  · rw [dif_neg h, dif_pos hc]; exact hq _

/-- Under the precondition the streamed loss and the plain loss of the same arguments are equal: row by row the
    streamed negative log-likelihood is the plain one. -/
theorem loss_eq (X : (⟨2, ![8192, 256]⟩ : Shape).Idx → EReal) (A : (⟨1, ![8192]⟩ : Shape).Idx → BitVec 32)
    (lut : (⟨2, ![5532, 256]⟩ : Shape).Idx → EReal) (cq : (⟨2, ![5000, 256]⟩ : Shape).Idx → EReal)
    (h : Cert.Pre_finite_inputs.fn (F := Ideal) X A lut cq = fun _ => 1#1) :
    lossK X A lut cq = lossR X A lut cq := by
  obtain ⟨hX, hl, hq, hlab⟩ := Cert.PreDecode.pre_decode X A lut cq h
  unfold lossK lossR
  congr 1
  funext r
  exact row_eq (rowOf X r) (wpad lut cq) (labOf A r) (fun d => hX _) (fun c hc d => wpad_real lut cq hl hq c hc d) (hlab r)

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the idealization: the finite fill of the padding columns is named -∞, and the named constant
    denotes -∞ on the extended reals. -/
theorem preserves : Cert.preserves_Kernel_KernelIdeal :=
  IdealRules.named_const.statement Cert.KernelIdeal.κ "neg_big" .f32 0xFF333332#32 ⊥ rfl

/-- From memories that agree on the arguments both programs end at the same loss. -/
theorem algebraic : Cert.algebraic_KernelIdeal_ReferenceIdeal := by
  intro m ρ m' ρ' hpre hagree
  refine ⟨fun c => fun _ => lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run_value m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_value, (hagree c).1, (hagree c).2.1, (hagree c).2.2.1, (hagree c).2.2.2]
  funext _
  exact (loss_eq _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
